-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S16 : Shape := ⟨1, ![16]⟩
abbrev S16x32x2 : Shape := ⟨3, ![16, 32, 2]⟩
abbrev S32000x128 : Shape := ⟨2, ![32000, 128]⟩
abbrev S128 : Shape := ⟨1, ![128]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S128 : S_.BroadcastsInDim S128 (![] : Fin 0 → Fin S128.rank)
  reducesTo_S128_S_d0 : S128.ReducesTo [0] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : IVec S16x512 32) (main_arg1 : IVec S16 32) (main_arg2 : IVec S16x32x2 32) (main_arg3 : FVec F S32000x128 .f32) (main_arg4 : FVec F S128 .f32) : IVec S_ 1 :=
  let main_v0 : FVec F S32000x128 .f32 := Host.absf main_arg3
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S16x512 32 := broadcastInDim S16x512 ![] bcast_S_S16x512 main_c_2
  let main_v10 : IVec S16x512 1 := cmpi .sge main_arg0 main_v9
  let main_c_3 : IVec S_ 1 := constantI S_ 1 1#1
  let main_v11 : IVec S_ 1 := (fun x v => Host.reduce IntOp.andi x v reducesTo_S16x512_S_d0_1 h_S_) main_v10 main_c_3
  let main_v12 : IVec S_ 1 := andi main_v8 main_v11
  main_v12
-- ==== Kernel.lean ====
abbrev S16x512 : Shape := ⟨2, ![16, 512]⟩
abbrev S16 : Shape := ⟨1, ![16]⟩
abbrev S16x32x2 : Shape := ⟨3, ![16, 32, 2]⟩
abbrev S32000x128 : Shape := ⟨2, ![32000, 128]⟩
abbrev S128 : Shape := ⟨1, ![128]⟩
abbrev S16x1x512 : Shape := ⟨3, ![16, 1, 512]⟩
abbrev S16x32x128 : Shape := ⟨3, ![16, 32, 128]⟩
abbrev S1x1x512 : Shape := ⟨3, ![1, 1, 512]⟩
abbrev S1x32x128 : Shape := ⟨3, ![1, 32, 128]⟩
abbrev S512x128 : Shape := ⟨2, ![512, 128]⟩
abbrev S512 : Shape := ⟨1, ![512]⟩
abbrev S1x1280 : Shape := ⟨2, ![1, 1280]⟩
abbrev S1280 : Shape := ⟨1, ![1280]⟩
abbrev S512x1 : Shape := ⟨2, ![512, 1]⟩
abbrev S512x1280 : Shape := ⟨2, ![512, 1280]⟩
abbrev S1280x128 : Shape := ⟨2, ![1280, 128]⟩
abbrev S1x32x2 : Shape := ⟨3, ![1, 32, 2]⟩
abbrev S32x2 : Shape := ⟨2, ![32, 2]⟩
abbrev S1 : Shape := ⟨1, ![1]⟩
abbrev S32x1 : Shape := ⟨2, ![32, 1]⟩
abbrev S32 : Shape := ⟨1, ![32]⟩
abbrev S32x512 : Shape := ⟨2, ![32, 512]⟩
abbrev S32x128 : Shape := ⟨2, ![32, 128]⟩
abbrev S1x128 : Shape := ⟨2, ![1, 128]⟩

abbrev nBuf : Space → Nat
  | .hbm => 7
  | .vmem => 8
  | .smem => 1
  | _ => 0

abbrev bufTy : (tb : Table) → Fin (tcTables nBuf tb) → BufTy
  | .hbm, ⟨0, _⟩ => ⟨S16x512, .i32⟩
  | .hbm, ⟨1, _⟩ => ⟨S16, .i32⟩
  | .hbm, ⟨2, _⟩ => ⟨S16x32x2, .i32⟩
  | .hbm, ⟨3, _⟩ => ⟨S32000x128, .f32⟩
  | .hbm, ⟨4, _⟩ => ⟨S128, .f32⟩
  | .hbm, ⟨5, _⟩ => ⟨S16x1x512, .i32⟩
  | .hbm, ⟨6, _⟩ => ⟨S16x32x128, .f32⟩
  | .local _ .vmem, ⟨0, _⟩ => ⟨S1x1x512, .i32⟩
  | .local _ .vmem, ⟨1, _⟩ => ⟨S1x1x512, .i32⟩
  | .local _ .vmem, ⟨2, _⟩ => ⟨S16x32x2, .i32⟩
  | .local _ .vmem, ⟨3, _⟩ => ⟨S32000x128, .f32⟩
  | .local _ .vmem, ⟨4, _⟩ => ⟨S128, .f32⟩
  | .local _ .vmem, ⟨5, _⟩ => ⟨S1x32x128, .f32⟩
  | .local _ .vmem, ⟨6, _⟩ => ⟨S1x32x128, .f32⟩
  | .local _ .vmem, ⟨7, _⟩ => ⟨S512x128, .f32⟩
  | .local _ .smem, ⟨0, _⟩ => ⟨S16, .i32⟩
  | _, _ => ⟨S16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 25], ![false, false]⟩

def k0_mult1 (i : grid0.Coords) : BitVec 32 :=
  let arg1 : BitVec 32 := BitVec.ofNat 32 (i 1).val
  let c1280_i32 : BitVec 32 := 1280#32
  let v5 : BitVec 32 := Scalar.muli arg1 c1280_i32
  v5
def k0_off1 (i : grid0.Coords) : Fin 2 → Nat :=
  let arg1 : BitVec 32 := BitVec.ofNat 32 (i 1).val
  let c1280_i32 : BitVec 32 := 1280#32
  let v5 : BitVec 32 := Scalar.muli arg1 c1280_i32
  let v6 : BitVec 32 := v5
  let v19 : Index := Scalar.indexCast v6
  let c0_3 : Index := 0#32
  ![v19.toNat, 0]
def k0_cond2 (i : grid0.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_8 : BitVec 32 := 0#32
  let v30 : BitVec 1 := Scalar.cmpi .ne v29 c0_i32_8
  v30

def k0_off2 (i : grid0.Coords) : Fin 3 → Nat :=
  let arg0 : BitVec 32 := BitVec.ofNat 32 (i 0).val
  let v31 : Index := Scalar.indexCast arg0
  let c0_9 : Index := 0#32
  let c0_10 : Index := 0#32
  ![v31.toNat, 0, 0]
def k0_off3 (i : grid0.Coords) : Fin 1 → Nat :=
  let arg0 : BitVec 32 := BitVec.ofNat 32 (i 0).val
  let v34 : Index := Scalar.indexCast arg0
  ![v34.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x32x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x512_S16x1x512 : S16x512.ShapeCasts S16x1x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S1x1280_d1_w32 : S1x1280.Iotas .tc 32 [1]
  shapeCasts_S1x1280_S1280 : S1x1280.ShapeCasts S1280
  shapeCasts_S512_S512x1 : S512.ShapeCasts S512x1
  shapeCasts_S1280_S1x1280 : S1280.ShapeCasts S1x1280
  broadcasts_S512x1_S512x1280 : S512x1.Broadcasts S512x1280
  broadcasts_S1x1280_S512x1280 : S1x1280.Broadcasts S512x1280
  natLt_1_32 : 1 < 32
  bitsLt_bf16_f32 : FTy.bits .bf16 < FTy.bits .f32
  h_S1280x128 : 0 < S1280x128.numel
  h_S1x32x2 : 0 < S1x32x2.numel
  shapeCasts_S1x32x2_S32x2 : S1x32x2.ShapeCasts S32x2
  numel1_S1 : S1.numel = 1
  slices_S32x2_o0_0_S32x1 : S32x2.Slices ![0, 0] S32x1
  shapeCasts_S32x1_S32 : S32x1.ShapeCasts S32
  slices_S32x2_o0_1_S32x1 : S32x2.Slices ![0, 1] S32x1
  iota_S32x512_d1_w32 : S32x512.Iotas .tc 32 [1]
  shapeCasts_S32_S32x1 : S32.ShapeCasts S32x1
  broadcasts_S32x1_S32x512 : S32x1.Broadcasts S32x512
  inb_S128_S128_0 : ∀ a, (![0] : Fin 1 → Nat) a + S128.size a ≤ S128.size a
  h_S128 : 0 < S128.numel
  shapeCasts_S128_S1x128 : S128.ShapeCasts S1x128
  broadcasts_S1x128_S32x128 : S1x128.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S512x1280_S1280x128_S512x128_1_0_0_1_n_n_wf : DotDims.WF S512x1280 S1280x128 S512x128 [1] [0] [0] [1] [] []
  dot_S32x512_S512x128_S32x128_1_0_0_1_n_n_wf : DotDims.WF S32x512 S512x128 S32x128 [1] [0] [0] [1] [] []
  hrank0 : 0 < grid0.rank
  k0_mult1_dvd : ∀ i : grid0.Coords, 1280 ∣ (k0_mult1 i).toNat
  k0_off1_inb : ∀ i : grid0.Coords, ∀ a, (k0_off1 i) a + S1280x128.size a ≤ S32000x128.size a
  k0_off2_inb : ∀ i : grid0.Coords, ∀ (k0_h2 : k0_cond2 i = 1#1), ∀ a, (k0_off2 i) a + S1x32x2.size a ≤ S16x32x2.size a
  k0_off3_inb : ∀ i : grid0.Coords, ∀ (k0_h2 : k0_cond2 i = 1#1), ∀ a, (k0_off3 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .i32 = 32 ∨ (Rect.block (s := S16x1x512) S1x1x512.size (cc0_transform_0 i) (hinb0_0 i)).WholeWords (EltTy.packing .i32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S16.size a ≤ S16.size a
  hwx0_1 : ∀ i : grid0.Coords, EltTy.bits .i32 = 32 ∨ (Rect.block (s := S16) S16.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32x2.size a ≤ S16x32x2.size a
  hwx0_2 : ∀ i : grid0.Coords, EltTy.bits .i32 = 32 ∨ (Rect.block (s := S16x32x2) S16x32x2.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32000x128.size a ≤ S32000x128.size a
  hwx0_3 : ∀ i : grid0.Coords, EltTy.bits .f32 = 32 ∨ (Rect.block (s := S32000x128) S32000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128.size a ≤ S16x32x128.size a
  hwx0_5 : ∀ i : grid0.Coords, EltTy.bits .f32 = 32 ∨ (Rect.block (s := S16x32x128) S1x32x128.size (cc0_transform_5 i) (hinb0_5 i)).WholeWords (EltTy.packing .f32)

variable [Facts₀]

def dot_S512x1280_S1280x128_S512x128_1_0_0_1_n_n : DotDims S512x1280 S1280x128 S512x128 where
  lhsContracting := [1]
  rhsContracting := [0]
  lhsNonContracting := [0]
  rhsNonContracting := [1]
  lhsBatch := []
  rhsBatch := []
  wf := dot_S512x1280_S1280x128_S512x128_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x512 : Shape := ⟨2, ![16, 512]⟩
abbrev S16 : Shape := ⟨1, ![16]⟩
abbrev S16x32x2 : Shape := ⟨3, ![16, 32, 2]⟩
abbrev S32000x128 : Shape := ⟨2, ![32000, 128]⟩
abbrev S128 : Shape := ⟨1, ![128]⟩
abbrev S512 : Shape := ⟨1, ![512]⟩
abbrev S16x32x1 : Shape := ⟨3, ![16, 32, 1]⟩
abbrev S16x32 : Shape := ⟨2, ![16, 32]⟩
abbrev S16x1 : Shape := ⟨2, ![16, 1]⟩
abbrev S1x1x512 : Shape := ⟨3, ![1, 1, 512]⟩
abbrev S16x32x512 : Shape := ⟨3, ![16, 32, 512]⟩
abbrev S16x1x1 : Shape := ⟨3, ![16, 1, 1]⟩
abbrev S32 : Shape := ⟨1, ![32]⟩
abbrev S1x32x1 : Shape := ⟨3, ![1, 32, 1]⟩
abbrev S16x1x512 : Shape := ⟨3, ![16, 1, 512]⟩
abbrev S_ : Shape := ⟨0, ![]⟩
abbrev S16x32x32000 : Shape := ⟨3, ![16, 32, 32000]⟩
abbrev S16x32x512x1 : Shape := ⟨4, ![16, 32, 512, 1]⟩
abbrev S16x32x512x3 : Shape := ⟨4, ![16, 32, 512, 3]⟩
abbrev S16x32x128 : Shape := ⟨3, ![16, 32, 128]⟩
abbrev S1x1x128 : Shape := ⟨3, ![1, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S16x512, .i32⟩
  | .hbm, ⟨1, _⟩ => ⟨S16, .i32⟩
  | .hbm, ⟨2, _⟩ => ⟨S16x32x2, .i32⟩
  | .hbm, ⟨3, _⟩ => ⟨S32000x128, .f32⟩
  | .hbm, ⟨4, _⟩ => ⟨S128, .f32⟩
  | .hbm, ⟨5, _⟩ => ⟨S512, .i32⟩
  | .hbm, ⟨6, _⟩ => ⟨S16x32x1, .i32⟩
  | .hbm, ⟨7, _⟩ => ⟨S16x32, .i32⟩
  | .hbm, ⟨8, _⟩ => ⟨S16x1, .i32⟩
  | .hbm, ⟨9, _⟩ => ⟨S16x32, .i32⟩
  | .hbm, ⟨10, _⟩ => ⟨S16x32, .i32⟩
  | .hbm, ⟨11, _⟩ => ⟨S16x32x1, .i32⟩
  | .hbm, ⟨12, _⟩ => ⟨S16x32, .i32⟩
  | .hbm, ⟨13, _⟩ => ⟨S16x1, .i32⟩
  | .hbm, ⟨14, _⟩ => ⟨S16x32, .i32⟩
  | .hbm, ⟨15, _⟩ => ⟨S16x32, .i32⟩
  | .hbm, ⟨16, _⟩ => ⟨S1x1x512, .i32⟩
  | .hbm, ⟨17, _⟩ => ⟨S16x32x1, .i32⟩
  | .hbm, ⟨18, _⟩ => ⟨S16x32x512, .i32⟩
  | .hbm, ⟨19, _⟩ => ⟨S16x32x512, .i32⟩
  | .hbm, ⟨20, _⟩ => ⟨S16x32x512, .i1⟩
  | .hbm, ⟨21, _⟩ => ⟨S1x1x512, .i32⟩
  | .hbm, ⟨22, _⟩ => ⟨S16x32x1, .i32⟩
  | .hbm, ⟨23, _⟩ => ⟨S16x32x512, .i32⟩
  | .hbm, ⟨24, _⟩ => ⟨S16x32x512, .i32⟩
  | .hbm, ⟨25, _⟩ => ⟨S16x32x512, .i1⟩
  | .hbm, ⟨26, _⟩ => ⟨S16x32x512, .i1⟩
  | .hbm, ⟨27, _⟩ => ⟨S16, .i32⟩
  | .hbm, ⟨28, _⟩ => ⟨S16x1x1, .i32⟩
  | .hbm, ⟨29, _⟩ => ⟨S16x32x512, .i32⟩
  | .hbm, ⟨30, _⟩ => ⟨S32, .i32⟩
  | .hbm, ⟨31, _⟩ => ⟨S1x32x1, .i32⟩
  | .hbm, ⟨32, _⟩ => ⟨S16x32x512, .i32⟩
  | .hbm, ⟨33, _⟩ => ⟨S16x1x512, .i32⟩
  | .hbm, ⟨34, _⟩ => ⟨S16x32x512, .i32⟩
  | .hbm, ⟨35, _⟩ => ⟨S_, .f32⟩
  | .hbm, ⟨36, _⟩ => ⟨S16x32x32000, .f32⟩
  | .hbm, ⟨37, _⟩ => ⟨S16x32x512, .f32⟩
  | .hbm, ⟨38, _⟩ => ⟨S_, .i32⟩
  | .hbm, ⟨39, _⟩ => ⟨S16x32x512, .i32⟩
  | .hbm, ⟨40, _⟩ => ⟨S16x32x512, .i1⟩
  | .hbm, ⟨41, _⟩ => ⟨S_, .i32⟩
  | .hbm, ⟨42, _⟩ => ⟨S16x32x512, .i32⟩
  | .hbm, ⟨43, _⟩ => ⟨S16x32x512, .i32⟩
  | .hbm, ⟨44, _⟩ => ⟨S16x32x512, .i32⟩
  | .hbm, ⟨45, _⟩ => ⟨S_, .i32⟩
  | .hbm, ⟨46, _⟩ => ⟨S16x32x512, .i32⟩
  | .hbm, ⟨47, _⟩ => ⟨S16x32x512, .i1⟩
  | .hbm, ⟨48, _⟩ => ⟨S_, .i32⟩
  | .hbm, ⟨49, _⟩ => ⟨S16x32x512, .i32⟩
  | .hbm, ⟨50, _⟩ => ⟨S16x32x512, .i32⟩
  | .hbm, ⟨51, _⟩ => ⟨S16x32x512, .i32⟩
  | .hbm, ⟨52, _⟩ => ⟨S_, .i32⟩
  | .hbm, ⟨53, _⟩ => ⟨S16x32x512, .i32⟩
  | .hbm, ⟨54, _⟩ => ⟨S16x32x512, .i1⟩
  | .hbm, ⟨55, _⟩ => ⟨S_, .i32⟩
  | .hbm, ⟨56, _⟩ => ⟨S16x32x512, .i32⟩
  | .hbm, ⟨57, _⟩ => ⟨S16x32x512, .i32⟩
  | .hbm, ⟨58, _⟩ => ⟨S16x32x512, .i32⟩
  | .hbm, ⟨59, _⟩ => ⟨S16x32x512x1, .i32⟩
  | .hbm, ⟨60, _⟩ => ⟨S16x32x512x1, .i32⟩
  | .hbm, ⟨61, _⟩ => ⟨S16x32x512x1, .i32⟩
  | .hbm, ⟨62, _⟩ => ⟨S16x32x512x3, .i32⟩
  | .hbm, ⟨63, _⟩ => ⟨S16x32x32000, .f32⟩
  | .hbm, ⟨64, _⟩ => ⟨S16x32x128, .f32⟩
  | .hbm, ⟨65, _⟩ => ⟨S1x1x128, .f32⟩
  | .hbm, ⟨66, _⟩ => ⟨S16x32x128, .f32⟩
  | .hbm, ⟨67, _⟩ => ⟨S16x32x128, .f32⟩
  | _, _ => ⟨S16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_c_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_1 : Ref sig .tc := ⟨.hbm, 45, rfl⟩
abbrev main_v37 : Ref sig .tc := ⟨.hbm, 46, rfl⟩
abbrev main_v38 : Ref sig .tc := ⟨.hbm, 47, rfl⟩
abbrev main_c_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_3 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]

class Facts₀ : Prop where
  slices_S16x32x2_S16x32x1_0_0_0 : S16x32x2.Slices ![0, 0, 0] S16x32x1
  shapeCasts_S16x32x1_S16x32 : S16x32x1.ShapeCasts S16x32
  bcast_S16_S16x1_0 : S16.BroadcastsInDim S16x1 (![0] : Fin 1 → Fin S16x1.rank)
  bcast_S16x1_S16x32_0_1 : S16x1.BroadcastsInDim S16x32 (![0, 1] : Fin 2 → Fin S16x32.rank)
  slices_S16x32x2_S16x32x1_0_0_1 : S16x32x2.Slices ![0, 0, 1] S16x32x1
  bcast_S512_S1x1x512_2 : S512.BroadcastsInDim S1x1x512 (![2] : Fin 1 → Fin S1x1x512.rank)
  bcast_S16x32_S16x32x1_0_1 : S16x32.BroadcastsInDim S16x32x1 (![0, 1] : Fin 2 → Fin S16x32x1.rank)
  bcast_S1x1x512_S16x32x512_0_1_2 : S1x1x512.BroadcastsInDim S16x32x512 (![0, 1, 2] : Fin 3 → Fin S16x32x512.rank)
  bcast_S16x32x1_S16x32x512_0_1_2 : S16x32x1.BroadcastsInDim S16x32x512 (![0, 1, 2] : Fin 3 → Fin S16x32x512.rank)
  bcast_S16_S16x1x1_0 : S16.BroadcastsInDim S16x1x1 (![0] : Fin 1 → Fin S16x1x1.rank)
  bcast_S16x1x1_S16x32x512_0_1_2 : S16x1x1.BroadcastsInDim S16x32x512 (![0, 1, 2] : Fin 3 → Fin S16x32x512.rank)
  bcast_S32_S1x32x1_1 : S32.BroadcastsInDim S1x32x1 (![1] : Fin 1 → Fin S1x32x1.rank)
  bcast_S1x32x1_S16x32x512_0_1_2 : S1x32x1.BroadcastsInDim S16x32x512 (![0, 1, 2] : Fin 3 → Fin S16x32x512.rank)
  bcast_S16x512_S16x1x512_0_2 : S16x512.BroadcastsInDim S16x1x512 (![0, 2] : Fin 2 → Fin S16x1x512.rank)
  bcast_S16x1x512_S16x32x512_0_1_2 : S16x1x512.BroadcastsInDim S16x32x512 (![0, 1, 2] : Fin 3 → Fin S16x32x512.rank)
  bcast_S_S16x32x32000 : S_.BroadcastsInDim S16x32x32000 (![] : Fin 0 → Fin S16x32x32000.rank)
  bcast_S_S16x32x512 : S_.BroadcastsInDim S16x32x512 (![] : Fin 0 → Fin S16x32x512.rank)
  bcast_S16x32x512_S16x32x512x1_0_1_2 : S16x32x512.BroadcastsInDim S16x32x512x1 (![0, 1, 2] : Fin 3 → Fin S16x32x512x1.rank)
  concatenates_S16x32x512x1_S16x32x512x1_S16x32x512x1_S16x32x512x3_d3 : Shape.Concatenates [S16x32x512x1, S16x32x512x1, S16x32x512x1] S16x32x512x3 3
  bcast_S128_S1x1x128_2 : S128.BroadcastsInDim S1x1x128 (![2] : Fin 1 → Fin S1x1x128.rank)
  bcast_S1x1x128_S16x32x128_0_1_2 : S1x1x128.BroadcastsInDim S16x32x128 (![0, 1, 2] : Fin 3 → Fin S16x32x128.rank)
  scatter_S16x32x32000_S16x32x512x3_S16x32x512_n_012_012_3_wf : ScatterDims.WF S16x32x32000 S16x32x512x3 S16x32x512 [] [0, 1, 2] [0, 1, 2] 3
  dot_S16x32x32000_S32000x128_S16x32x128_2_0_01_1_n_n_wf : DotDims.WF S16x32x32000 S32000x128 S16x32x128 [2] [0] [0, 1] [1] [] []

variable [Facts₀]

def scatter_S16x32x32000_S16x32x512x3_S16x32x512_n_012_012_3 : ScatterDims S16x32x32000 S16x32x512x3 S16x32x512 where
  updateWindowDims := []
  insertedWindowDims := [0, 1, 2]
  scatterDimsToOperandDims := [0, 1, 2]
  indexVectorDim := 3
  wf := scatter_S16x32x32000_S16x32x512x3_S16x32x512_n_012_012_3_wf
def dot_S16x32x32000_S32000x128_S16x32x128_2_0_01_1_n_n : DotDims S16x32x32000 S32000x128 S16x32x128 where
  lhsContracting := [2]
  rhsContracting := [0]
  lhsNonContracting := [0, 1]
  rhsNonContracting := [1]
  lhsBatch := []
  rhsBatch := []
  wf := dot_S16x32x32000_S32000x128_S16x32x128_2_0_01_1_n_n_wf

class Facts : Prop extends Facts₀ where

variable [Facts]
-- ==== Proof.Spec.lean ====
/-
  The mathematics both programs compute, stated once over the five argument arrays.

  For a sample b, a segment s and an output column d the result is

      sum over positions t of  [t lies in segment s of sample b] * E(b, t, d)   +   bias(d),

  where E(b, t, d) = sum over vocabulary ids v of [tokens(b, t) = v] * W(v, d) is the embedding row the token at
  position t selects (zero when the token is no vocabulary id), and position t lies in the segment when
  min(start, len) <= t < min(stop, len), all compared as signed 32-bit integers.
-/
import Idealize.ShloMosaic.PureOps.Ideal
import Idealize.ShloMosaic.Lib.ValueIdx

noncomputable section

namespace Cert.SegBow

open Idealize.ShloMosaic Idealize.ShloMosaic.ValueIdx

/-- Position t lies in the clamped span [min lo len, min hi len), as the one-bit word both programs compute. -/
def spanBit (lo hi len : BitVec 32) (t : Fin 512) : BitVec 1 :=
  IntOp.andi (IntOp.cmpi .sge (BitVec.ofNat 32 t.val) (IntOp.minsi lo len))
    (IntOp.cmpi .slt (BitVec.ofNat 32 t.val) (IntOp.minsi hi len))

/-- A one-bit word as the extended real 0 or 1. -/
def bitVal (b : BitVec 1) : EReal := if b = 1#1 then 1 else 0

/-- The indicator that a token word is vocabulary id v. -/
def hot (tok : BitVec 32) (v : Fin 32000) : EReal := if tok = BitVec.ofNat 32 v.val then 1 else 0

/-- The embedding row selected by the token at position t of sample b, at column d. -/
def emb (tokens : IVec ⟨2, ![16, 512]⟩ 32) (W : (⟨2, ![32000, 128]⟩ : Shape).Idx → EReal) (b : Fin 16) (t : Fin 512) (d : Fin 128) : EReal :=
  ∑ v : Fin 32000, hot (tokens (ix2 b t)) v * W (ix2 v d)

/-- The segment weight of position t for segment s of sample b. -/
def segW (lens : IVec ⟨1, ![16]⟩ 32) (spans : IVec ⟨3, ![16, 32, 2]⟩ 32) (b : Fin 16) (s : Fin 32) (t : Fin 512) : EReal :=
  bitVal (spanBit (spans (ix3 b s (0 : Fin 2))) (spans (ix3 b s (1 : Fin 2))) (lens (ix1 b)) t)

/-- The result at sample b, segment s, column d. -/
def Gval (tokens : IVec ⟨2, ![16, 512]⟩ 32) (lens : IVec ⟨1, ![16]⟩ 32) (spans : IVec ⟨3, ![16, 32, 2]⟩ 32)
    (W : (⟨2, ![32000, 128]⟩ : Shape).Idx → EReal) (bias : (⟨1, ![128]⟩ : Shape).Idx → EReal) (b : Fin 16) (s : Fin 32) (d : Fin 128) : EReal :=
  (∑ t : Fin 512, segW lens spans b s t * emb tokens W b t d) + bias (ix1 d)

/-- The whole result array. -/
def G (tokens : IVec ⟨2, ![16, 512]⟩ 32) (lens : IVec ⟨1, ![16]⟩ 32) (spans : IVec ⟨3, ![16, 32, 2]⟩ 32)
    (W : (⟨2, ![32000, 128]⟩ : Shape).Idx → EReal) (bias : (⟨1, ![128]⟩ : Shape).Idx → EReal) : (⟨3, ![16, 32, 128]⟩ : Shape).Idx → EReal :=
  fun i => Gval tokens lens spans W bias ⟨(i 0).val, (i 0).isLt⟩ ⟨(i 1).val, (i 1).isLt⟩ ⟨(i 2).val, (i 2).isLt⟩

theorem G_ix3 (tokens : IVec ⟨2, ![16, 512]⟩ 32) (lens : IVec ⟨1, ![16]⟩ 32) (spans : IVec ⟨3, ![16, 32, 2]⟩ 32)
    (W : (⟨2, ![32000, 128]⟩ : Shape).Idx → EReal) (bias : (⟨1, ![128]⟩ : Shape).Idx → EReal) (b : Fin 16) (s : Fin 32) (d : Fin 128) :
    G tokens lens spans W bias (ix3 b s d) = Gval tokens lens spans W bias b s d := rfl

theorem bitVal_zero_or_one (b : BitVec 1) : bitVal b = 0 ∨ bitVal b = 1 := by
  unfold bitVal; split <;> simp

theorem hot_zero_or_one (tok : BitVec 32) (v : Fin 32000) : hot tok v = 0 ∨ hot tok v = 1 := by
  unfold hot; split <;> simp

/-- A signed-converted zero-extended bit and an unsigned-converted bit are both the bit's value. -/
theorem sitofp_extui_bit (b : BitVec 1) : (((b.setWidth 32).toInt : ℝ) : EReal) = bitVal b := by
  rcases BitVec.eq_zero_or_eq_one b with h | h <;> subst h <;> simp [bitVal]

theorem uitofp_bit (b : BitVec 1) : (((b.toNat : ℕ) : ℝ) : EReal) = bitVal b := by
  rcases BitVec.eq_zero_or_eq_one b with h | h <;> subst h <;> simp [bitVal]

end Cert.SegBow

end
-- ==== Proof.Pieces.lean ====
/-
  What one grid point leaves in the accumulator and in the output block, as the body's stored values of the point's
  loads: at every point the accumulator becomes its previous contents (zero at the first vocabulary chunk) plus the
  chunk's contribution, and at the last chunk the output block is the segment reduction of the finished accumulator.
-/
import proofs.«407604_j37160057045658_2_alg».proof.Proof.Gen.KernelIdeal.Frame
import Idealize.ShloMosaic.Lib.Pipeline.Value

set_option maxRecDepth 16384

noncomputable section

namespace Cert.SegBow.Kern

open Cert.KernelIdeal Cert.KernelIdeal.Gen Idealize.ShloMosaic Idealize.ShloMosaic.TcCoe Idealize.ShloMosaic.Tactic Idealize.SL.Sem

variable {F : FTy → Type} [FloatOps F]

/-- The rows of W the point's vocabulary chunk loads. -/
abbrev wchunk (i : grid0.Coords) (x3 : Vec F S32000x128 .f32) : Vec F S1280x128 .f32 :=
  View.ld x3 (Rect.unit (k0_off1 i) S1280x128.size (k0_off1_inb i))

/-- The sample's row of segment bounds. -/
abbrev spanrow (i : grid0.Coords) (h : cond0_1 i) (x2 : Vec F S16x32x2 .i32) : Vec F S1x32x2 .i32 :=
  View.ld x2 (Rect.unit (k0_off2 i) S1x32x2.size (k0_off2_inb i h))

/-- The sample's length word. -/
abbrev lenword (i : grid0.Coords) (h : cond0_1 i) (x1 : Vec F S16 .i32) : Elt F .i32 :=
  View.ld x1 (Rect.unit (k0_off3 i) S1.size (k0_off3_inb i h)) (Shape.Idx.first (numel1_S1.symm ▸ Nat.one_pos))

/-- First chunk: the accumulator is reset and then updated. -/
theorem sout_A (c : Dev nD) (i : grid0.Coords) (arg2 : Memref sig .tc .vmem S1x1x512 .i32) (harg2 : arg2.IsWhole) (arg3 : Memref sig .tc .smem S16 .i32) (harg3 : arg3.IsWhole) (arg4 : Memref sig .tc .vmem S16x32x2 .i32) (harg4 : arg4.IsWhole) (arg5 : Memref sig .tc .vmem S32000x128 .f32) (harg5 : arg5.IsWhole) (arg6 : Memref sig .tc .vmem S128 .f32) (harg6 : arg6.IsWhole) (arg7 : Memref sig .tc .vmem S1x32x128 .f32) (harg7 : arg7.IsWhole) (arg8 : Memref sig .tc .vmem S512x128 .f32) (harg8 : arg8.IsWhole) (hc0 : cond0_0 i) (hc1 : ¬cond0_1 i) (x0 : Vec F S1x1x512 .i32) (x1 : Vec F S16 .i32) (x2 : Vec F S16x32x2 .i32) (x3 : Vec F S32000x128 .f32) (x4 : Vec F S128 .f32) :
    sout0_A_0 c i arg2 harg2 arg3 harg3 arg4 harg4 arg5 harg5 arg6 harg6 arg7 harg7 arg8 harg8 hc0 hc1 x0 x1 x2 x3 x4 = k0_pay2 i x0 (wchunk i x3) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x128) (show (![0, 0] : Fin 2 → Nat) = fun _ => 0 by funext a; fin_cases a <;> rfl)]
  simp only [View.readAt_eq_ld, Memref.IsWhole.read_unread, View.readCov_unit_zero (S := S512x128) _ (show (![0, 0] : Fin 2 → Nat) = fun _ => 0 by funext a; fin_cases a <;> rfl), View.ld_unit_zero (S := S512x128) (show (![0, 0] : Fin 2 → Nat) = fun _ => 0 by funext a; fin_cases a <;> rfl), View.ld_unit_zero (S := S1x1x512) (show (![0, 0, 0] : Fin 3 → Nat) = fun _ => 0 by funext a; fin_cases a <;> rfl)]
  rfl

/-- A middle chunk: the accumulator is updated over what the point before left. -/
theorem sout_B (c : Dev nD) (i : grid0.Coords) (arg2 : Memref sig .tc .vmem S1x1x512 .i32) (harg2 : arg2.IsWhole) (arg3 : Memref sig .tc .smem S16 .i32) (harg3 : arg3.IsWhole) (arg4 : Memref sig .tc .vmem S16x32x2 .i32) (harg4 : arg4.IsWhole) (arg5 : Memref sig .tc .vmem S32000x128 .f32) (harg5 : arg5.IsWhole) (arg6 : Memref sig .tc .vmem S128 .f32) (harg6 : arg6.IsWhole) (arg7 : Memref sig .tc .vmem S1x32x128 .f32) (harg7 : arg7.IsWhole) (arg8 : Memref sig .tc .vmem S512x128 .f32) (harg8 : arg8.IsWhole) (hc0 : ¬cond0_0 i) (hc1 : ¬cond0_1 i) (x0 : Vec F S1x1x512 .i32) (x1 : Vec F S16 .i32) (x2 : Vec F S16x32x2 .i32) (x3 : Vec F S32000x128 .f32) (x4 : Vec F S128 .f32) (xs0 : Vec F S512x128 .f32) :
    sout0_B_0 c i arg2 harg2 arg3 harg3 arg4 harg4 arg5 harg5 arg6 harg6 arg7 harg7 arg8 harg8 hc0 hc1 x0 x1 x2 x3 x4 xs0 = k0_pay2 i x0 (wchunk i x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S512x128) (show (![0, 0] : Fin 2 → Nat) = fun _ => 0 by funext a; fin_cases a <;> rfl)]
  simp only [View.readAt_eq_ld, Memref.IsWhole.read_unread, View.ld_unit_zero (S := S512x128) (show (![0, 0] : Fin 2 → Nat) = fun _ => 0 by funext a; fin_cases a <;> rfl), View.ld_unit_zero (S := S1x1x512) (show (![0, 0, 0] : Fin 3 → Nat) = fun _ => 0 by funext a; fin_cases a <;> rfl)]
  rfl

/-- The last chunk: the same update. -/
theorem sout_C (c : Dev nD) (i : grid0.Coords) (arg2 : Memref sig .tc .vmem S1x1x512 .i32) (harg2 : arg2.IsWhole) (arg3 : Memref sig .tc .smem S16 .i32) (harg3 : arg3.IsWhole) (arg4 : Memref sig .tc .vmem S16x32x2 .i32) (harg4 : arg4.IsWhole) (arg5 : Memref sig .tc .vmem S32000x128 .f32) (harg5 : arg5.IsWhole) (arg6 : Memref sig .tc .vmem S128 .f32) (harg6 : arg6.IsWhole) (arg7 : Memref sig .tc .vmem S1x32x128 .f32) (harg7 : arg7.IsWhole) (arg8 : Memref sig .tc .vmem S512x128 .f32) (harg8 : arg8.IsWhole) (hc0 : ¬cond0_0 i) (hc1 : cond0_1 i) (x0 : Vec F S1x1x512 .i32) (x1 : Vec F S16 .i32) (x2 : Vec F S16x32x2 .i32) (x3 : Vec F S32000x128 .f32) (x4 : Vec F S128 .f32) (xs0 : Vec F S512x128 .f32) :
    sout0_C_0 c i arg2 harg2 arg3 harg3 arg4 harg4 arg5 harg5 arg6 harg6 arg7 harg7 arg8 harg8 hc0 hc1 x0 x1 x2 x3 x4 xs0 = k0_pay2 i x0 (wchunk i x3) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x128) (show (![0, 0] : Fin 2 → Nat) = fun _ => 0 by funext a; fin_cases a <;> rfl)]
  simp only [View.readAt_eq_ld, Memref.IsWhole.read_unread, View.ld_unit_zero (S := S512x128) (show (![0, 0] : Fin 2 → Nat) = fun _ => 0 by funext a; fin_cases a <;> rfl), View.ld_unit_zero (S := S1x1x512) (show (![0, 0, 0] : Fin 3 → Nat) = fun _ => 0 by funext a; fin_cases a <;> rfl)]
  rfl

/-- The last chunk's output block: the segment reduction of the updated accumulator, plus the bias. -/
theorem out_C (c : Dev nD) (i : grid0.Coords) (arg2 : Memref sig .tc .vmem S1x1x512 .i32) (harg2 : arg2.IsWhole) (arg3 : Memref sig .tc .smem S16 .i32) (harg3 : arg3.IsWhole) (arg4 : Memref sig .tc .vmem S16x32x2 .i32) (harg4 : arg4.IsWhole) (arg5 : Memref sig .tc .vmem S32000x128 .f32) (harg5 : arg5.IsWhole) (arg6 : Memref sig .tc .vmem S128 .f32) (harg6 : arg6.IsWhole) (arg7 : Memref sig .tc .vmem S1x32x128 .f32) (harg7 : arg7.IsWhole) (arg8 : Memref sig .tc .vmem S512x128 .f32) (harg8 : arg8.IsWhole) (hc0 : ¬cond0_0 i) (hc1 : cond0_1 i) (x0 : Vec F S1x1x512 .i32) (x1 : Vec F S16 .i32) (x2 : Vec F S16x32x2 .i32) (x3 : Vec F S32000x128 .f32) (x4 : Vec F S128 .f32) (xs0 : Vec F S512x128 .f32) :
    out0_C_5 c i arg2 harg2 arg3 harg3 arg4 harg4 arg5 harg5 arg6 harg6 arg7 harg7 arg8 harg8 hc0 hc1 x0 x1 x2 x3 x4 xs0 = k0_pay3 (spanrow i hc1 x2) (lenword i hc1 x1) (k0_pay2 i x0 (wchunk i x3) xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x32x128) (show (![0, 0, 0] : Fin 3 → Nat) = fun _ => 0 by funext a; fin_cases a <;> rfl)]
  simp only [View.readAt_eq_ld, Memref.IsWhole.read_unread, View.readCov_unit_zero (S := S512x128) _ (show (![0, 0] : Fin 2 → Nat) = fun _ => 0 by funext a; fin_cases a <;> rfl), View.ld_unit_zero (S := S512x128) (show (![0, 0] : Fin 2 → Nat) = fun _ => 0 by funext a; fin_cases a <;> rfl), View.ld_unit_zero (S := S1x1x512) (show (![0, 0, 0] : Fin 3 → Nat) = fun _ => 0 by funext a; fin_cases a <;> rfl), View.ld_unit_zero (S := S128) (show (![0] : Fin 1 → Nat) = fun _ => 0 by funext a; fin_cases a <;> rfl)]
  rfl

end Cert.SegBow.Kern

end
-- ==== Proof.Payload.lean ====
/-
  The three stored values of the kernel body, read at an index over the extended reals.
-/
import proofs.«407604_j37160057045658_2_alg».proof.Proof.Gen.KernelIdeal.Skeleton
import proofs.«407604_j37160057045658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.SegBow.Pay

open Idealize.ShloMosaic Idealize.ShloMosaic.ValueIdx Cert.KernelIdeal Cert.KernelIdeal.Gen Cert.SegBow

/-! ## Layout operations at coordinates: the column forms -/

section Layout
variable {α : Type}

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast to [a, b] reads, at (p, c), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products read at an index -/

theorem lhs_dot1_0 (i : S512x128.Idx) (q : dot_S512x1280_S1280x128_S512x128_1_0_0_1_n_n.contr.Idx) :
    (dot_S512x1280_S1280x128_S512x128_1_0_0_1_n_n.lhsIdx i q 0).val = (i 0).val := by
  unfold DotDims.lhsIdx
  rw [dif_neg (show ¬(0 : Fin S512x1280.rank) ∈ dot_S512x1280_S1280x128_S512x128_1_0_0_1_n_n.lhsBatch by decide), dif_pos (show (0 : Fin S512x1280.rank) ∈ dot_S512x1280_S1280x128_S512x128_1_0_0_1_n_n.lhsNonContracting by decide)]
  rfl
theorem lhs_dot1_1 (i : S512x128.Idx) (q : dot_S512x1280_S1280x128_S512x128_1_0_0_1_n_n.contr.Idx) :
    (dot_S512x1280_S1280x128_S512x128_1_0_0_1_n_n.lhsIdx i q 1).val = (q ⟨0, by decide⟩).val :=
  dot_S512x1280_S1280x128_S512x128_1_0_0_1_n_n.lhsIdx_val_of_single rfl i q
theorem rhs_dot1_0 (i : S512x128.Idx) (q : dot_S512x1280_S1280x128_S512x128_1_0_0_1_n_n.contr.Idx) :
    (dot_S512x1280_S1280x128_S512x128_1_0_0_1_n_n.rhsIdx i q 0).val = (q ⟨0, by decide⟩).val :=
  dot_S512x1280_S1280x128_S512x128_1_0_0_1_n_n.rhsIdx_val_of_single rfl i q
theorem rhs_dot1_1 (i : S512x128.Idx) (q : dot_S512x1280_S1280x128_S512x128_1_0_0_1_n_n.contr.Idx) :
    (dot_S512x1280_S1280x128_S512x128_1_0_0_1_n_n.rhsIdx i q 1).val = (i 1).val := by
  unfold DotDims.rhsIdx
  rw [dif_neg (show ¬(1 : Fin S1280x128.rank) ∈ dot_S512x1280_S1280x128_S512x128_1_0_0_1_n_n.rhsBatch by decide), dif_pos (show (1 : Fin S1280x128.rank) ∈ dot_S512x1280_S1280x128_S512x128_1_0_0_1_n_n.rhsNonContracting by decide)]
  rfl

/-- The [512, 1280] by [1280, 128] product into a zero accumulator is the sum over the shared axis. -/
theorem matmul1_apply {φ₁ φ₂ : FTy} (A : FVec Ideal S512x1280 φ₁) (B : FVec Ideal S1280x128 φ₂) (t : Fin 512) (d : Fin 128) :
    matmul dot_S512x1280_S1280x128_S512x128_1_0_0_1_n_n none A B (constant (F := Ideal) S512x128 .f32 0x00000000#32) (ix2 t d)
      = ∑ j : Fin 1280, A (ix2 t j) * B (ix2 j d) := by
  simp only [matmul]
  rw [Ideal.matmul_constant_zero_apply, ← Equiv.sum_comp (ValueIdx.contrEquiv1 dot_S512x1280_S1280x128_S512x128_1_0_0_1_n_n 1280 rfl rfl).symm]
  refine Finset.sum_congr rfl fun k _ => ?_
  have hk := ValueIdx.contrEquiv1_symm_val dot_S512x1280_S1280x128_S512x128_1_0_0_1_n_n 1280 rfl rfl k
  have el : dot_S512x1280_S1280x128_S512x128_1_0_0_1_n_n.lhsIdx (ix2 t d) ((ValueIdx.contrEquiv1 dot_S512x1280_S1280x128_S512x128_1_0_0_1_n_n 1280 rfl rfl).symm k) = ix2 t k := funext fun a => Fin.ext (by
    match a with
    | ⟨0, _⟩ => exact lhs_dot1_0 _ _
    | ⟨1, _⟩ => exact (lhs_dot1_1 _ _).trans hk)
  have er : dot_S512x1280_S1280x128_S512x128_1_0_0_1_n_n.rhsIdx (ix2 t d) ((ValueIdx.contrEquiv1 dot_S512x1280_S1280x128_S512x128_1_0_0_1_n_n 1280 rfl rfl).symm k) = ix2 k d := funext fun a => Fin.ext (by
    match a with
    | ⟨0, _⟩ => exact (rhs_dot1_0 _ _).trans hk
    | ⟨1, _⟩ => exact rhs_dot1_1 _ _)
  rw [el, er]

theorem lhs_dot2_0 (i : S32x128.Idx) (q : dot_S32x512_S512x128_S32x128_1_0_0_1_n_n.contr.Idx) :
    (dot_S32x512_S512x128_S32x128_1_0_0_1_n_n.lhsIdx i q 0).val = (i 0).val := by
  unfold DotDims.lhsIdx
  rw [dif_neg (show ¬(0 : Fin S32x512.rank) ∈ dot_S32x512_S512x128_S32x128_1_0_0_1_n_n.lhsBatch by decide), dif_pos (show (0 : Fin S32x512.rank) ∈ dot_S32x512_S512x128_S32x128_1_0_0_1_n_n.lhsNonContracting by decide)]
  rfl
theorem lhs_dot2_1 (i : S32x128.Idx) (q : dot_S32x512_S512x128_S32x128_1_0_0_1_n_n.contr.Idx) :
    (dot_S32x512_S512x128_S32x128_1_0_0_1_n_n.lhsIdx i q 1).val = (q ⟨0, by decide⟩).val :=
  dot_S32x512_S512x128_S32x128_1_0_0_1_n_n.lhsIdx_val_of_single rfl i q
theorem rhs_dot2_0 (i : S32x128.Idx) (q : dot_S32x512_S512x128_S32x128_1_0_0_1_n_n.contr.Idx) :
    (dot_S32x512_S512x128_S32x128_1_0_0_1_n_n.rhsIdx i q 0).val = (q ⟨0, by decide⟩).val :=
  dot_S32x512_S512x128_S32x128_1_0_0_1_n_n.rhsIdx_val_of_single rfl i q
theorem rhs_dot2_1 (i : S32x128.Idx) (q : dot_S32x512_S512x128_S32x128_1_0_0_1_n_n.contr.Idx) :
    (dot_S32x512_S512x128_S32x128_1_0_0_1_n_n.rhsIdx i q 1).val = (i 1).val := by
  unfold DotDims.rhsIdx
  rw [dif_neg (show ¬(1 : Fin S512x128.rank) ∈ dot_S32x512_S512x128_S32x128_1_0_0_1_n_n.rhsBatch by decide), dif_pos (show (1 : Fin S512x128.rank) ∈ dot_S32x512_S512x128_S32x128_1_0_0_1_n_n.rhsNonContracting by decide)]
  rfl

/-- The [32, 512] by [512, 128] product into a zero accumulator is the sum over the shared axis. -/
theorem matmul2_apply {φ₁ φ₂ : FTy} (A : FVec Ideal S32x512 φ₁) (B : FVec Ideal S512x128 φ₂) (s : Fin 32) (d : Fin 128) :
    matmul dot_S32x512_S512x128_S32x128_1_0_0_1_n_n none A B (constant (F := Ideal) S32x128 .f32 0x00000000#32) (ix2 s d)
      = ∑ t : Fin 512, A (ix2 s t) * B (ix2 t d) := by
  simp only [matmul]
  rw [Ideal.matmul_constant_zero_apply, ← Equiv.sum_comp (ValueIdx.contrEquiv1 dot_S32x512_S512x128_S32x128_1_0_0_1_n_n 512 rfl rfl).symm]
  refine Finset.sum_congr rfl fun k _ => ?_
  have hk := ValueIdx.contrEquiv1_symm_val dot_S32x512_S512x128_S32x128_1_0_0_1_n_n 512 rfl rfl k
  have el : dot_S32x512_S512x128_S32x128_1_0_0_1_n_n.lhsIdx (ix2 s d) ((ValueIdx.contrEquiv1 dot_S32x512_S512x128_S32x128_1_0_0_1_n_n 512 rfl rfl).symm k) = ix2 s k := funext fun a => Fin.ext (by
    match a with
    | ⟨0, _⟩ => exact lhs_dot2_0 _ _
    | ⟨1, _⟩ => exact (lhs_dot2_1 _ _).trans hk)
  have er : dot_S32x512_S512x128_S32x128_1_0_0_1_n_n.rhsIdx (ix2 s d) ((ValueIdx.contrEquiv1 dot_S32x512_S512x128_S32x128_1_0_0_1_n_n 512 rfl rfl).symm k) = ix2 k d := funext fun a => Fin.ext (by
    match a with
    | ⟨0, _⟩ => exact (rhs_dot2_0 _ _).trans hk
    | ⟨1, _⟩ => exact rhs_dot2_1 _ _)
  rw [el, er]

/-- The reset value of the accumulator is zero everywhere. -/
theorem pay1_apply (t : Fin 512) (d : Fin 128) : (k0_pay1 (F := Ideal)) (ix2 t d) = 0 := by
  unfold k0_pay1
  rw [shapeCast_self]
  exact Ideal.ofBits_zero_f32

/-! ## Words and bits -/

/-- The word of chunk k's base plus the lane j is the word of the vocabulary id 1280 k + j. -/
theorem word_chunk (k j : ℕ) :
    IntOp.addi (Scalar.muli (BitVec.ofNat 32 k) 1280#32) (BitVec.ofNat 32 j) = BitVec.ofNat 32 (1280 * k + j) := by
  show BitVec.ofNat 32 k * BitVec.ofNat 32 1280 + BitVec.ofNat 32 j = _
  rw [← BitVec.ofNat_mul, ← BitVec.ofNat_add, Nat.mul_comm]

/-- The equality test of two words, as a bit, has the value of the indicator of their equality. -/
theorem bitVal_cmpi_eq (a b : BitVec 32) : bitVal (IntOp.cmpi .eq a b) = if a = b then 1 else 0 := by
  show bitVal (BitVec.ofBool (a == b)) = _
  by_cases h : a = b
  · rw [if_pos h, beq_iff_eq.mpr h]; simp [bitVal]
  · rw [if_neg h, beq_eq_false_iff_ne.mpr h]; simp [bitVal]

/-! ## The operands of the comparisons at coordinates -/

/-- The token column spread over the chunk's lanes reads, at (t, j), the token word at position t. -/
theorem tokCol_apply (v3 : IVec S1x1x512 32) (h1 : S1x1x512.ShapeCasts S512) (h2 : S512.ShapeCasts S512x1)
    (h3 : S512x1.Broadcasts S512x1280) (t : Fin 512) (j : Fin 1280) :
    broadcastTo S512x1280 (shapeCast S512x1 (shapeCast S512 v3 h1) h2) h3 (ix2 t j) = v3 (ix3 (0 : Fin 1) (0 : Fin 1) t) :=
  (broadcastTo_a1_ab_apply _ _ t j).trans ((shapeCast_a_a1_apply _ _ t 0).trans (shapeCast_11a_a_apply _ _ t))

/-- The row of lane numbers offset by a base word reads, at (t, j), the base plus the word of j. -/
theorem laneRow_apply (base : BitVec 32) (h1 : S1x1280.Iotas .tc 32 [1]) (h2 : S1x1280.ShapeCasts S1280)
    (h3 : S1280.ShapeCasts S1x1280) (h4 : S1x1280.Broadcasts S512x1280) (t : Fin 512) (j : Fin 1280) :
    broadcastTo S512x1280 (shapeCast S1x1280 (addi (broadcast S1280 base) (shapeCast S1280 (iota .tc S1x1280 32 [1] h1) h2)) h3) h4 (ix2 t j)
      = IntOp.addi base (BitVec.ofNat 32 j.val) := by
  refine (broadcastTo_1b_ab_apply _ _ t j).trans ((shapeCast_a_1a_apply _ _ 0 j).trans ?_)
  show IntOp.addi base (shapeCast S1280 (iota .tc S1x1280 32 [1] h1) h2 (ix1 j)) = _
  rw [shapeCast_1a_a_apply, iota_single_apply]

/-- A clamped span bound spread over the positions reads, at (s, t), the smaller of segment s's bound and the length. -/
theorem spanCol_apply (v32 : IVec S1x32x2 32) (v35 : BitVec 32) (o : ℕ) (c : Fin 2) (hc : c.val = o + (0 : Fin 1).val)
    (h1 : S1x32x2.ShapeCasts S32x2) (h2 : S32x2.Slices ![0, o] S32x1) (h3 : S32x1.ShapeCasts S32)
    (h4 : S32.ShapeCasts S32x1) (h5 : S32x1.Broadcasts S32x512) (s : Fin 32) (t : Fin 512) :
    broadcastTo S32x512 (shapeCast S32x1 (minsi (shapeCast S32 (extractStridedSlice S32x1 ![0, o] (shapeCast S32x2 v32 h1) h2) h3) (broadcast S32 v35)) h4) h5 (ix2 s t)
      = IntOp.minsi (v32 (ix3 (0 : Fin 1) s c)) v35 := by
  refine (broadcastTo_a1_ab_apply _ _ s t).trans ((shapeCast_a_a1_apply _ _ s 0).trans ?_)
  show IntOp.minsi (shapeCast S32 (extractStridedSlice S32x1 ![0, o] (shapeCast S32x2 v32 h1) h2) h3 (ix1 s)) v35 = _
  rw [shapeCast_a1_a_apply, slice2_axis1_apply o _ h2 s 0 c hc, shapeCast_1ab_ab_apply]

/-- One vocabulary chunk's update: the accumulator plus the chunk's one-hot rows times the chunk of W. -/
theorem pay2_apply (i : grid0.Coords) (k : Fin 25) (hk : (i 1).val = k.val) (v3 : IVec S1x1x512 32) (v20 : FVec Ideal S1280x128 .f32) (v22 : FVec Ideal S512x128 .f32)
    (t : Fin 512) (d : Fin 128) :
    k0_pay2 (F := Ideal) i v3 v20 v22 (ix2 t d)
      = v22 (ix2 t d) + ∑ j : Fin 1280, hot (v3 (ix3 (0 : Fin 1) (0 : Fin 1) t)) ⟨1280 * k.val + j.val, by have := k.isLt; have := j.isLt; omega⟩ * v20 (ix2 j d) := by
  unfold k0_pay2
  rw [shapeCast_self]
  refine (addf_apply _ _ _).trans ?_
  refine congrArg (v22 (ix2 t d) + ·) ?_
  refine (matmul1_apply _ _ t d).trans ?_
  refine Finset.sum_congr rfl fun j _ => ?_
  refine congrArg₂ (· * ·) ?_ rfl
  show ((((IntOp.cmpi .eq (broadcastTo S512x1280 _ _ (ix2 t j)) (broadcastTo S512x1280 _ _ (ix2 t j))).setWidth 32).toInt : ℝ) : EReal) = _
  rw [sitofp_extui_bit, bitVal_cmpi_eq, tokCol_apply, laneRow_apply, hk, word_chunk]
  rfl

/-- The final store: the segment weights times the accumulated embedding rows, plus the bias. -/
theorem pay3_apply (v32 : IVec S1x32x2 32) (v35 : BitVec 32) (v55 : FVec Ideal S512x128 .f32) (v58 : FVec Ideal S128 .f32) (s : Fin 32) (d : Fin 128) :
    k0_pay3 (F := Ideal) v32 v35 v55 v58 (ix3 (0 : Fin 1) s d)
      = (∑ t : Fin 512, bitVal (spanBit (v32 (ix3 (0 : Fin 1) s (0 : Fin 2))) (v32 (ix3 (0 : Fin 1) s (1 : Fin 2))) v35 t) * v55 (ix2 t d)) + v58 (ix1 d) := by
  unfold k0_pay3
  refine (shapeCast_ab_1ab_apply _ _ (0 : Fin 1) s d).trans ?_
  refine (addf_apply _ _ _).trans ?_
  refine congrArg₂ (· + ·) ?_ ?_
  · refine (matmul2_apply _ _ s d).trans ?_
    refine Finset.sum_congr rfl fun t _ => ?_
    refine congrArg₂ (· * ·) ?_ rfl
    show ((((IntOp.andi (IntOp.cmpi .sge (iota .tc S32x512 32 [1] _ (ix2 s t)) (broadcastTo S32x512 _ _ (ix2 s t)))
      (IntOp.cmpi .slt (iota .tc S32x512 32 [1] _ (ix2 s t)) (broadcastTo S32x512 _ _ (ix2 s t)))).setWidth 32).toInt : ℝ) : EReal) = _
    rw [sitofp_extui_bit, iota_single_apply, spanCol_apply v32 v35 0 0 rfl, spanCol_apply v32 v35 1 1 rfl]
    rfl
  · exact (broadcastTo_1b_ab_apply _ _ s d).trans (shapeCast_a_1a_apply _ _ 0 d)

end Cert.SegBow.Pay

end
-- ==== Proof.BlockReads.lean ====
/-
  What the body's loads read of the argument arrays at a grid point: the sample's token row, the sample's row of segment
  bounds and its length, the vocabulary chunk's rows of W, and the bias.
-/
import proofs.«407604_j37160057045658_2_alg».proof.Proof.Gen.KernelIdeal.Frame
import proofs.«407604_j37160057045658_2_alg».proof.Proof.Pieces
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.SegBow.Kern

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Grid point t is sample t / 25, vocabulary chunk t % 25. -/
theorem grid_coords : ∀ t : Fin cfg0.N, ((grid0.coords t) 0).val = t.val / 25 ∧ ((grid0.coords t) 1).val = t.val % 25 :=
  (by decide +kernel : ∀ t : Fin grid0.N, ((grid0.coords t) 0).val = t.val / 25 ∧ ((grid0.coords t) 1).val = t.val % 25)

/-- The block indices of the five input windows at every grid point: the token window moves with the sample, the
    other four stay at block 0 on every axis. -/
theorem blk_index : ∀ t : Fin cfg0.N,
    win0_0.index t (0 : Fin 3) = t.val / 25 ∧ win0_0.index t (1 : Fin 3) = 0 ∧ win0_0.index t (2 : Fin 3) = 0
    ∧ win0_1.index t (0 : Fin 1) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0 :=
  (by decide +kernel : ∀ t : Fin grid0.N, _)

/-- The [16, 1, 512] view of the token array at (b, 0, p) is the array at (b, p): both sit at row-major position 512 b + p. -/
theorem tok_view_apply (x : IVec S16x512 32) (b : Fin 16) (p : Fin 512) :
    shapeCast S16x1x512 x shapeCasts_S16x512_S16x1x512 (ix3 b (0 : Fin 1) p) = x (ix2 b p) := by
  refine shapeCast_apply x _ _ _ ?_
  rw [Shape.rowMajor_val_two, Shape.rowMajor_val_three]
  show b.val * 512 + p.val = (b.val * 1 + 0) * 512 + p.val
  omega

/-- The token block at point t is the token row of sample t / 25. -/
theorem tok_blk (c : Dev nD) (t : Fin cfg0.N) (b : Fin 16) (hb : t.val / 25 = b.val) (p : Fin 512) :
    (iblk m c 0 t : Vec Ideal S1x1x512 .i32) (ix3 (0 : Fin 1) (0 : Fin 1) p) = (m ((c : Thread nD τ).loc main_arg0) : IVec S16x512 32) (ix2 b p) := by
  obtain ⟨e0, e1, e2, -⟩ := blk_index t
  have e : (V m c main_v0 : S16x1x512.Idx → BitVec 32) = shapeCast S16x1x512 (m ((c : Thread nD τ).loc main_arg0)) shapeCasts_S16x512_S16x1x512 := by
    dsimp only [Gen.V, Gen.hostOps0]; after_results; rfl
  refine Eq.trans ?_ (tok_view_apply _ b p)
  rw [← e]
  unfold iblk
  rw [View.read_apply]
  show V m c main_v0 _ = V m c main_v0 _
  congr 1
  funext a
  apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 512 + 1 * p.val = p.val; omega

/-- The lengths, the segment bounds, W and the bias are staged whole. -/
theorem len_blk (c : Dev nD) (t : Fin cfg0.N) : (iblk m c 1 t : Vec Ideal S16 .i32) = m ((c : Thread nD τ).loc main_arg1) := by
  obtain ⟨-, -, -, e0, -⟩ := blk_index t
  funext y
  unfold iblk
  rw [View.read_apply]
  show V m c main_arg1 _ = _
  rw [V_main_arg1]
  congr 1
  funext a
  apply Fin.ext
  match a with
  | ⟨0, _⟩ => show win0_1.index t (0 : Fin 1) * 16 + 1 * (y 0).val = (y 0).val; omega
theorem span_blk (c : Dev nD) (t : Fin cfg0.N) : (iblk m c 2 t : Vec Ideal S16x32x2 .i32) = m ((c : Thread nD τ).loc main_arg2) := by
  obtain ⟨-, -, -, -, e0, e1, e2, -⟩ := blk_index t
  funext y
  unfold iblk
  rw [View.read_apply]
  show V m c main_arg2 _ = _
  rw [V_main_arg2]
  congr 1
  funext a
  apply Fin.ext
  match a with
  | ⟨0, _⟩ => show win0_2.index t (0 : Fin 3) * 16 + 1 * (y 0).val = (y 0).val; omega
  | ⟨1, _⟩ => show win0_2.index t (1 : Fin 3) * 32 + 1 * (y 1).val = (y 1).val; omega
  | ⟨2, _⟩ => show win0_2.index t (2 : Fin 3) * 2 + 1 * (y 2).val = (y 2).val; omega
theorem w_blk (c : Dev nD) (t : Fin cfg0.N) : (iblk m c 3 t : Vec Ideal S32000x128 .f32) = m ((c : Thread nD τ).loc main_arg3) := by
  obtain ⟨-, -, -, -, -, -, -, e0, e1, -⟩ := blk_index t
  funext y
  unfold iblk
  rw [View.read_apply]
  show V m c main_arg3 _ = _
  rw [V_main_arg3]
  congr 1
  funext a
  apply Fin.ext
  match a with
  | ⟨0, _⟩ => show win0_3.index t (0 : Fin 2) * 32000 + 1 * (y 0).val = (y 0).val; omega
  | ⟨1, _⟩ => show win0_3.index t (1 : Fin 2) * 128 + 1 * (y 1).val = (y 1).val; omega
theorem bias_blk (c : Dev nD) (t : Fin cfg0.N) : (iblk m c 4 t : Vec Ideal S128 .f32) = m ((c : Thread nD τ).loc main_arg4) := by
  obtain ⟨-, -, -, -, -, -, -, -, -, e0⟩ := blk_index t
  funext y
  unfold iblk
  rw [View.read_apply]
  show V m c main_arg4 _ = _
  rw [V_main_arg4]
  congr 1
  funext a
  apply Fin.ext
  match a with
  | ⟨0, _⟩ => show win0_4.index t (0 : Fin 1) * 128 + 1 * (y 0).val = (y 0).val; omega

/-- The chunk's row offset, a 32-bit product, does not wrap: it is 1280 k. -/
theorem chunk_off : ∀ k : Fin 25, (Scalar.indexCast (Scalar.muli (BitVec.ofNat 32 k.val) 1280#32)).toNat = 1280 * k.val := by decide
/-- The sample's offset word is the sample number. -/
theorem sample_off : ∀ b : Fin 16, (Scalar.indexCast (BitVec.ofNat 32 b.val)).toNat = b.val := by decide

/-- Row j of chunk k of W is row 1280 k + j of W. -/
theorem wchunk_apply (i : grid0.Coords) (k : Fin 25) (hk : (i 1).val = k.val) (x3 : Vec Ideal S32000x128 .f32) (j : Fin 1280) (d : Fin 128) :
    wchunk i x3 (ix2 j d) = x3 (ix2 (⟨1280 * k.val + j.val, by have := k.isLt; have := j.isLt; omega⟩ : Fin 32000) d) := by
  have hw := chunk_off k
  show x3 _ = x3 _
  congr 1
  funext a
  apply Fin.ext
  match a with
  | ⟨0, _⟩ =>
    show (Scalar.indexCast (Scalar.muli (BitVec.ofNat 32 (i 1).val) 1280#32)).toNat + 1 * j.val = 1280 * k.val + j.val
    rw [hk, hw]; omega
  | ⟨1, _⟩ => show 0 + 1 * d.val = d.val; omega

/-- The loaded row of segment bounds is sample b's. -/
theorem spanrow_apply (i : grid0.Coords) (h : cond0_1 i) (b : Fin 16) (hb : (i 0).val = b.val) (x2 : Vec Ideal S16x32x2 .i32) (s : Fin 32) (a : Fin 2) :
    spanrow i h x2 (ix3 (0 : Fin 1) s a) = x2 (ix3 b s a) := by
  have hw := sample_off b
  show x2 _ = x2 _
  congr 1
  funext q
  apply Fin.ext
  match q with
  | ⟨0, _⟩ =>
    show (Scalar.indexCast (BitVec.ofNat 32 (i 0).val)).toNat + 1 * 0 = b.val
    rw [hb, hw]; omega
  | ⟨1, _⟩ => show 0 + 1 * s.val = s.val; omega
  | ⟨2, _⟩ => show 0 + 1 * a.val = a.val; omega

/-- The loaded length word is sample b's. -/
theorem lenword_apply (i : grid0.Coords) (h : cond0_1 i) (b : Fin 16) (hb : (i 0).val = b.val) (x1 : Vec Ideal S16 .i32) :
    lenword i h x1 = x1 (ix1 b) := by
  have hw := sample_off b
  show x1 _ = x1 _
  congr 1
  funext q
  apply Fin.ext
  match q with
  | ⟨0, _⟩ =>
    show (Scalar.indexCast (BitVec.ofNat 32 (i 0).val)).toNat + 1 * 0 = b.val
    rw [hb, hw]; omega

end Cert.SegBow.Kern

end
-- ==== Proof.ChunkSum.lean ====
/-
  Summing chunk by chunk over the vocabulary is summing over the vocabulary.
-/
import Idealize.ShloMosaic.PureOps.Ideal

noncomputable section

namespace Cert.SegBow

/-- An id below 32000 is a chunk number below 25 and an offset below 1280:
    `v = 1280 * (v / 1280) + v % 1280`. -/
def chunkEquiv : Fin 25 × Fin 1280 ≃ Fin 32000 where
  toFun p := ⟨1280 * p.1.val + p.2.val, by have := p.1.isLt; have := p.2.isLt; omega⟩
  invFun v := (⟨v.val / 1280, by have := v.isLt; omega⟩,
    ⟨v.val % 1280, Nat.mod_lt _ (by decide)⟩)
  left_inv := by
    rintro ⟨⟨a, ha⟩, ⟨b, hb⟩⟩
    simp only [Prod.mk.injEq, Fin.mk.injEq]
    constructor <;> omega
  right_inv := by
    rintro ⟨v, hv⟩
    simp only [Fin.mk.injEq]
    omega

/-- The 25 chunks of 1280 consecutive ids tile the 32000 ids. -/
theorem sum_chunks (f : Fin 32000 → EReal) :
    ∑ s ∈ Finset.range 25, ∑ j : Fin 1280, f ⟨1280 * (s % 25) + j.val, by have := Nat.mod_lt s (by decide : 0 < 25); have := j.isLt; omega⟩ = ∑ v : Fin 32000, f v := by
  calc _ = ∑ s : Fin 25, ∑ j : Fin 1280, f (chunkEquiv (s, j)) := by
        rw [Finset.sum_range]
        refine Finset.sum_congr rfl (fun s _ => Finset.sum_congr rfl (fun j _ => ?_))
        congr 1
        apply Fin.ext
        simp only [chunkEquiv, Equiv.coe_fn_mk, Nat.mod_eq_of_lt s.isLt]
    _ = ∑ p : Fin 25 × Fin 1280, f (chunkEquiv p) := (Fintype.sum_prod_type' _).symm
    _ = ∑ v : Fin 32000, f v := Equiv.sum_comp chunkEquiv f

end Cert.SegBow

end
-- ==== Proof.KernelValue.lean ====
/-
  The kernel's result array as the stated function of the arguments.

  The accumulator is carried across the 25 vocabulary chunks of a sample: it is reset at the first chunk, every chunk
  adds its own contribution, so after chunk k it holds the sum of the contributions of chunks 0 … k, and after the last
  chunk the embedding rows of the sample's tokens. The last chunk's point then writes the segment reduction of those
  rows, plus the bias, as the sample's block of the result; the 16 samples' blocks tile the result array.
-/
import proofs.«407604_j37160057045658_2_alg».proof.Proof.Gen.KernelIdeal.Value
import proofs.«407604_j37160057045658_2_alg».proof.Proof.Spec
import proofs.«407604_j37160057045658_2_alg».proof.Proof.Pieces
import proofs.«407604_j37160057045658_2_alg».proof.Proof.Payload
import proofs.«407604_j37160057045658_2_alg».proof.Proof.BlockReads
import proofs.«407604_j37160057045658_2_alg».proof.Proof.ChunkSum
import Idealize.ShloMosaic.Lib.Pipeline.Value
import Idealize.ShloMosaic.Lib.ValueIdx

set_option maxRecDepth 16384

noncomputable section

namespace Cert.SegBow.Kern

open Cert.KernelIdeal Cert.KernelIdeal.Gen Cert.KernelIdeal.Value Idealize.ShloMosaic Idealize.ShloMosaic.TcCoe Idealize.ShloMosaic.ValueIdx Idealize.SL.Sem Cert.SegBow
open Idealize.ShloMosaic.Pipeline (Dat)

variable (m : (ℓ : Loc nD τ sig) → Buf (Elt Ideal) ℓ) (ρ : Dev nD → PrngReg)

/-- The five argument arrays as launched. -/
abbrev toks (c : Dev nD) : IVec S16x512 32 := m ((c : Thread nD τ).loc main_arg0)
abbrev lens (c : Dev nD) : IVec S16 32 := m ((c : Thread nD τ).loc main_arg1)
abbrev spans (c : Dev nD) : IVec S16x32x2 32 := m ((c : Thread nD τ).loc main_arg2)
abbrev wts (c : Dev nD) : S32000x128.Idx → EReal := m ((c : Thread nD τ).loc main_arg3)
abbrev bias (c : Dev nD) : S128.Idx → EReal := m ((c : Thread nD τ).loc main_arg4)

/-- The sample and the vocabulary chunk of grid point n. -/
def sampleOf (n : ℕ) : Fin 16 := ⟨(n / 25) % 16, Nat.mod_lt _ (by decide)⟩
def chunkOf (n : ℕ) : Fin 25 := ⟨n % 25, Nat.mod_lt _ (by decide)⟩

/-- What grid point n adds to the accumulator: its chunk's part of the embedding rows of its sample's tokens. -/
def addend (c : Dev nD) (n : ℕ) : S512x128.Idx → EReal := fun y =>
  ∑ j : Fin 1280, hot (toks m c (ix2 (sampleOf n) (⟨(y 0).val, (y 0).isLt⟩ : Fin 512)))
      (⟨1280 * (chunkOf n).val + j.val, by have := (chunkOf n).isLt; have := j.isLt; omega⟩ : Fin 32000)
    * wts m c (ix2 (⟨1280 * (chunkOf n).val + j.val, by have := (chunkOf n).isLt; have := j.isLt; omega⟩ : Fin 32000) (⟨(y 1).val, (y 1).isLt⟩ : Fin 128))

/-- One chunk's update of the accumulator adds the point's addend. -/
theorem step_apply (c : Dev nD) (n : ℕ) (h : n < cfg0.N) (acc : Vec Ideal S512x128 .f32) (y : S512x128.Idx) :
    k0_pay2 (F := Ideal) (grid0.coords (⟨n, h⟩ : Fin cfg0.N)) (iblk m c 0 ⟨n, h⟩) (wchunk (grid0.coords (⟨n, h⟩ : Fin cfg0.N)) (iblk m c 3 ⟨n, h⟩)) acc y
      = acc y + addend m c n y := by
  have hN : n < 400 := lt_of_lt_of_eq h (show cfg0.N = 400 from N_0)
  obtain ⟨p, d, rfl⟩ : ∃ (p : Fin 512) (d : Fin 128), y = ix2 p d := ⟨y 0, y 1, eq_ix2 y⟩
  have hg := grid_coords ⟨n, h⟩
  have hk : ((grid0.coords (⟨n, h⟩ : Fin cfg0.N)) 1).val = (chunkOf n).val := hg.2
  have hb : (⟨n, h⟩ : Fin cfg0.N).val / 25 = (sampleOf n).val := by
    show n / 25 = (n / 25) % 16; omega
  rw [Pay.pay2_apply _ (chunkOf n) hk]
  refine congrArg (acc (ix2 p d) + ·) ?_
  unfold addend
  refine Finset.sum_congr rfl fun j _ => ?_
  rw [tok_blk m c ⟨n, h⟩ (sampleOf n) hb p, wchunk_apply _ (chunkOf n) hk, w_blk]

/-- The first chunk of a sample resets the accumulator and adds its addend. -/
theorem first_apply (c : Dev nD) (n : ℕ) (h : n < cfg0.N) (h0 : n % 25 = 0) (y : S512x128.Idx) :
    scAt0_0 m c n h (VS0_0.read (Elt Ideal) VS0_0.junk) y = (0 : EReal) + addend m c n y := by
  have h1 : ¬n % 25 = 24 := by omega
  unfold scAt0_0
  rw [dif_pos h0, dif_neg h1, sout_A, step_apply]
  obtain ⟨p, d, rfl⟩ : ∃ (p : Fin 512) (d : Fin 128), y = ix2 p d := ⟨y 0, y 1, eq_ix2 y⟩
  rw [Pay.pay1_apply]

/-- A later chunk adds its addend to what the chunk before left. -/
theorem later_apply (c : Dev nD) (n : ℕ) (h : n < cfg0.N) (h0 : ¬n % 25 = 0) (acc : Vec Ideal S512x128 .f32) (y : S512x128.Idx) :
    scAt0_0 m c n h acc y = acc y + addend m c n y := by
  unfold scAt0_0
  rw [dif_neg h0]
  by_cases h1 : n % 25 = 24
  · rw [dif_pos h1, sout_C, step_apply]
  · rw [dif_neg h1, sout_B, step_apply]

/-- After the point of chunk k the accumulator holds the addends of the sample's chunks 0 … k. -/
theorem scratch_apply (c : Dev nD) (t : Fin cfg0.N) (y : S512x128.Idx) :
    (outsAt0 m c t.val t.isLt).2 y = (0 : EReal) + ∑ s ∈ Finset.range (t.val % 25 + 1), addend m c (25 * (t.val / 25) + s) y := by
  rw [soutsAt0_0_eq m c t]
  exact Pipeline.accAt_add_apply _ _ (fun _ => (0 : EReal)) (addend m c) (25 * (t.val / 25)) 24
    (fun h i => first_apply m c _ h (by omega) i)
    (fun n h acc i hlt hle => later_apply m c n h (by omega) acc i)
    (t.val % 25) (by omega) _ y

/-- After the last chunk of sample b the accumulator holds the embedding rows of the sample's tokens. -/
theorem scratch_last (c : Dev nD) (t : Fin cfg0.N) (h1 : t.val % 25 = 24) (b : Fin 16) (hb : t.val / 25 = b.val) (p : Fin 512) (d : Fin 128) :
    (outsAt0 m c t.val t.isLt).2 (ix2 p d) = emb (toks m c) (wts m c) b p d := by
  rw [scratch_apply, h1, zero_add]
  unfold emb
  rw [← sum_chunks (fun v => hot (toks m c (ix2 b p)) v * wts m c (ix2 v d))]
  refine Finset.sum_congr rfl fun s hs => ?_
  have hs' : s < 25 := Finset.mem_range.mp hs
  have hsam : sampleOf (25 * (t.val / 25) + s) = b := Fin.ext (by
    show (25 * (t.val / 25) + s) / 25 % 16 = b.val
    have := b.isLt; omega)
  have hchk : (chunkOf (25 * (t.val / 25) + s)).val = s % 25 := by
    show (25 * (t.val / 25) + s) % 25 = s % 25; omega
  unfold addend
  refine Finset.sum_congr rfl fun j _ => ?_
  have e : (⟨1280 * (chunkOf (25 * (t.val / 25) + s)).val + j.val, by have := (chunkOf (25 * (t.val / 25) + s)).isLt; have := j.isLt; omega⟩ : Fin 32000)
      = ⟨1280 * (s % 25) + j.val, by have := Nat.mod_lt s (by decide : 0 < 25); have := j.isLt; omega⟩ := Fin.ext (congrArg (fun x => 1280 * x + j.val) hchk)
  rw [hsam, e]

/-- Output window 5's block index at point t is (t / 25, 0, 0). -/
theorem idx5 : ∀ t : Fin cfg0.N, win0_5.index t (0 : Fin 3) = t.val / 25 ∧ win0_5.index t (1 : Fin 3) = 0 ∧ win0_5.index t (2 : Fin 3) = 0 :=
  (by decide +kernel : ∀ t : Fin grid0.N, win0_5.index t (0 : Fin 3) = t.val / 25 ∧ win0_5.index t (1 : Fin 3) = 0 ∧ win0_5.index t (2 : Fin 3) = 0)

/-- What the last chunk's point of a sample writes back is that sample's block of G of the arguments. -/
theorem flushed_eq (c : Dev nD) (t : Fin cfg0.N) (hf : (cfg0.win 5).flush t = true) :
    (dats m 0 c).flushed 5 t = ((cfg0.win 5).blk t).view.read (Elt Ideal) (G (toks m c) (lens m c) (spans m c) (wts m c) (bias m c)) := by
  have hN : t.val < 400 := lt_of_lt_of_eq t.isLt (show cfg0.N = 400 from N_0)
  have h1 : t.val % 25 = 24 := (flush0_5 t).mp hf
  have h0 : ¬t.val % 25 = 0 := by omega
  rw [flushed5_C m c t h0 h1, out_C]
  refine funext fun (j : S1x32x128.Idx) => ?_
  obtain ⟨z, s, d, rfl⟩ : ∃ (z : Fin 1) (s : Fin 32) (d : Fin 128), j = ix3 z s d := ⟨j 0, j 1, j 2, eq_ix3 j⟩
  obtain rfl : z = 0 := Subsingleton.elim _ _
  obtain ⟨b, hb⟩ : ∃ b : Fin 16, t.val / 25 = b.val := ⟨⟨t.val / 25, by omega⟩, rfl⟩
  have hg := grid_coords t
  have hbi : ((grid0.coords t) 0).val = b.val := hg.1.trans hb
  obtain ⟨e0, e1, e2⟩ := idx5 t
  have hemb : ((cfg0.win 5).blk t).view.emb (ix3 (0 : Fin 1) s d) = ix3 b s d := by
    funext a; apply Fin.ext
    match a with
    | ⟨0, _⟩ => show win0_5.index t (0 : Fin 3) * 1 + 1 * 0 = b.val; omega
    | ⟨1, _⟩ => show win0_5.index t (1 : Fin 3) * 32 + 1 * s.val = s.val; omega
    | ⟨2, _⟩ => show win0_5.index t (2 : Fin 3) * 128 + 1 * d.val = d.val; omega
  show k0_pay3 (F := Ideal) _ _ _ _ (ix3 (0 : Fin 1) s d) = G (toks m c) (lens m c) (spans m c) (wts m c) (bias m c) (((cfg0.win 5).blk t).view.emb (ix3 (0 : Fin 1) s d))
  rw [hemb, G_ix3, Pay.pay3_apply]
  unfold Gval segW
  rw [spanrow_apply _ _ b hbi, spanrow_apply _ _ b hbi, lenword_apply _ _ b hbi, span_blk, len_blk, bias_blk]
  refine congrArg (· + bias m c (ix1 d)) (Finset.sum_congr rfl fun p _ => ?_)
  refine congrArg (bitVal (spanBit (spans m c (ix3 b s (0 : Fin 2))) (spans m c (ix3 b s (1 : Fin 2))) (lens m c (ix1 b)) p) * ·) ?_
  rw [← sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)]
  have hs : (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 := by
    rw [outsAt0_C m c t h0 h1]
  rw [← hs]
  exact scratch_last m c t h1 b hb p d

/-- Every index of the result array lies in the block some sample's last point writes back. -/
theorem cover (c : Dev nD) (i : S16x32x128.Idx) :
    ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 128 := (i 2).isLt
  have hlt : 25 * (i 0).val + 24 < cfg0.N := by rw [show cfg0.N = 400 from N_0]; omega
  obtain ⟨t, ht⟩ : ∃ t : Fin cfg0.N, t.val = 25 * (i 0).val + 24 := ⟨⟨_, hlt⟩, rfl⟩
  refine ⟨t, (flush0_5 t).mpr (by omega), ?_⟩
  obtain ⟨e0, e1, e2⟩ := idx5 t
  show i ∈ ((View.whole main_v1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 32 ≤ (i 1).val ∧ (i 1).val < win0_5.index t (1 : Fin 3) * 32 + 32; omega
  | ⟨2, _⟩ => show win0_5.index t (2 : Fin 3) * 128 ≤ (i 2).val ∧ (i 2).val < win0_5.index t (2 : Fin 3) * 128 + 128; omega

/-- The result array after the run is G of the arguments. -/
theorem final (c : Dev nD) : (dats m 0 c).arrAt 5 cfg0.N = G (toks m c) (lens m c) (spans m c) (wts m c) (bias m c) :=
  (dats m 0 c).arrAt_eq_of_cover 5 (G (toks m c) (lens m c) (spans m c) (wts m c) (bias m c)) (fun t hf => flushed_eq m c t hf) (cover c)

/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v1) = G (toks m c) (lens m c) (spans m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.SegBow.Kern

end
-- ==== Proof.Algebra.lean ====
/-
  Exchanging the two sums of the segment reduction over the extended reals.
-/
import Idealize.ShloMosaic.PureOps.Ideal
import Mathlib.Data.EReal.Operations
import Mathlib.Algebra.Order.BigOperators.Group.Finset

noncomputable section

namespace Cert.SegBow

/-- A factor that is 0 or 1 distributes over any finite sum of extended reals. -/
theorem zeroOne_mul_sum {V : Type} (s : Finset V) (c : EReal) (hc : c = 0 ∨ c = 1) (x : V → EReal) :
    c * ∑ v ∈ s, x v = ∑ v ∈ s, c * x v := by
  rcases hc with rfl | rfl
  · simp only [zero_mul, Finset.sum_const_zero]
  · simp only [one_mul]

/-- A finite sum of nonnegative extended reals distributes over a right factor of any sign or size. -/
theorem sum_nonneg_mul {T : Type} (s : Finset T) (c : T → EReal) (hc : ∀ t, 0 ≤ c t) (w : EReal) :
    (∑ t ∈ s, c t) * w = ∑ t ∈ s, c t * w := by
  classical
  induction s using Finset.induction_on with
  | empty => simp only [Finset.sum_empty, zero_mul]
  | insert a s ha ih =>
    rw [Finset.sum_insert ha, Finset.sum_insert ha,
      EReal.right_distrib_of_nonneg (hc a) (Finset.sum_nonneg fun t _ => hc t), ih]

/-- With 0/1 weights m and h, summing first over the inner index and then over the outer one equals collecting the
    weights of each inner index first: sum_t m t * (sum_v h t v * w v) = sum_v (sum_t m t * h t v) * w v.
    No finiteness of w is needed: a 0/1 factor distributes over any sum of extended reals, and a sum of nonnegative
    terms distributes on the right. -/
theorem sum_mask_hot_swap {T V : Type} [Fintype T] [Fintype V] (m : T → EReal) (h : T → V → EReal) (w : V → EReal)
    (hm : ∀ t, m t = 0 ∨ m t = 1) (hh : ∀ t v, h t v = 0 ∨ h t v = 1) :
    ∑ t, m t * ∑ v, h t v * w v = ∑ v, (∑ t, m t * h t v) * w v := by
  -- every product of two 0/1 weights is 0 or 1, hence nonnegative
  have hnn : ∀ t v, 0 ≤ m t * h t v := by
    intro t v
    rcases hm t with h1 | h1 <;> rcases hh t v with h2 | h2 <;> rw [h1, h2] <;>
      first
        | exact (zero_mul _).ge
        | exact (mul_zero _).ge
        | (rw [mul_one]; exact zero_le_one)
  calc ∑ t, m t * ∑ v, h t v * w v
      = ∑ t, ∑ v, (m t * h t v) * w v := by
        refine Finset.sum_congr rfl fun t _ => ?_
        rw [zeroOne_mul_sum _ _ (hm t)]
        exact Finset.sum_congr rfl fun v _ => (mul_assoc _ _ _).symm
    _ = ∑ v, ∑ t, (m t * h t v) * w v := Finset.sum_comm
    _ = ∑ v, (∑ t, m t * h t v) * w v := by
        refine Finset.sum_congr rfl fun v _ => ?_
        exact (sum_nonneg_mul _ _ (fun t => hnn t v) _).symm

end Cert.SegBow

end
-- ==== Proof.Scatter.lean ====
/-
  When an update of the histogram scatter lands on a given histogram cell.
-/
import proofs.«407604_j37160057045658_2_alg».proof.Proof.Gen.ReferenceIdeal
import Idealize.ShloMosaic.Lib.ValueIdx

noncomputable section

namespace Cert.SegBow.Ref

open Idealize.ShloMosaic Idealize.ShloMosaic.ValueIdx Cert.ReferenceIdeal Cert.ReferenceIdeal.Gen

/-- The scatter's dimension numbers: no window axes, every histogram axis inserted and named by the index vector. -/
private abbrev D := scatter_S16x32x32000_S16x32x512x3_S16x32x512_n_012_012_3

/-- Every histogram axis is an inserted axis, so the window coordinate is 0 on each. -/
theorem window_zero (j : S16x32x512.Idx) (a : Fin 3) : D.window j a = 0 := by
  unfold ScatterDims.window
  rw [dif_neg]
  revert a
  decide

/-- Component c of the start index of update (b, s, t) is read at (b, s, t, c): the update's three coordinates, with c on
    the index vector's axis. -/
theorem siIdx_eq (b : Fin 16) (s : Fin 32) (t : Fin 512) (c : Fin 3) :
    D.siIdx (ix3 b s t) c = ix4 b s t c := by
  funext e
  match e with
  | ⟨0, _⟩ => rfl
  | ⟨1, _⟩ => rfl
  | ⟨2, _⟩ => rfl
  | ⟨3, _⟩ => rfl

/-- Histogram axis a is named at position a of the axis map, so the start on axis a is word a of the index vector at
    (b, s, t), read signed. -/
theorem start_eq (idx : IVec S16x32x512x3 32) (b : Fin 16) (s : Fin 32) (t : Fin 512) (a : Fin 3) :
    D.start (ix3 b s t) idx a = (idx (ix4 b s t a)).toInt := by
  have hm : ∀ a : Fin 3, a ∈ D.scatterDimsToOperandDims := by decide
  unfold ScatterDims.start
  rw [dif_pos (hm a)]
  match a with
  | ⟨0, _⟩ => exact congrArg (fun k => (idx k).toInt) ((siIdx_eq b s t _).trans rfl)
  | ⟨1, _⟩ => exact congrArg (fun k => (idx k).toInt) ((siIdx_eq b s t _).trans rfl)
  | ⟨2, _⟩ => exact congrArg (fun k => (idx k).toInt) ((siIdx_eq b s t _).trans rfl)

/-- The update at (b, s, t) carries the three-word index vector idx (b, s, t, ·), read signed; it lands on cell i exactly
    when each word, as an integer, is the corresponding coordinate of i (the scatter has no window axes, so nothing is
    added to the start index, and an index outside the histogram lands nowhere). -/
theorem hits_iff (idx : IVec S16x32x512x3 32) (b : Fin 16) (s : Fin 32) (t : Fin 512) (i : S16x32x32000.Idx) :
    scatter_S16x32x32000_S16x32x512x3_S16x32x512_n_012_012_3.resultIdx? (ix3 b s t) idx = some i
      ↔ (idx (ix4 b s t (0 : Fin 3))).toInt = ((i 0).val : Int) ∧ (idx (ix4 b s t (1 : Fin 3))).toInt = ((i 1).val : Int)
        ∧ (idx (ix4 b s t (2 : Fin 3))).toInt = ((i 2).val : Int) := by
  have h0 : ((i 0).val : Nat) < 16 := (i 0).isLt
  have h1 : ((i 1).val : Nat) < 32 := (i 1).isLt
  have h2 : ((i 2).val : Nat) < 32000 := (i 2).isLt
  have e0 := start_eq idx b s t 0
  have e1 := start_eq idx b s t 1
  have e2 := start_eq idx b s t 2
  have w0 := window_zero (ix3 b s t) 0
  have w1 := window_zero (ix3 b s t) 1
  have w2 := window_zero (ix3 b s t) 2
  unfold ScatterDims.resultIdx?
  split
  · rename_i h
    rw [Option.some.injEq]
    constructor
    · intro hi
      subst hi
      refine ⟨?_, ?_, ?_⟩
      · have := (h 0).1
        show _ = (((D.start (ix3 b s t) idx 0 + (D.window (ix3 b s t) 0 : Nat)).toNat : Nat) : Int)
        rw [w0, e0] at this ⊢
        omega
      · have := (h 1).1
        show _ = (((D.start (ix3 b s t) idx 1 + (D.window (ix3 b s t) 1 : Nat)).toNat : Nat) : Int)
        rw [w1, e1] at this ⊢
        omega
      · have := (h 2).1
        show _ = (((D.start (ix3 b s t) idx 2 + (D.window (ix3 b s t) 2 : Nat)).toNat : Nat) : Int)
        rw [w2, e2] at this ⊢
        omega
    · rintro ⟨g0, g1, g2⟩
      funext a
      apply Fin.ext
      match a with
      | ⟨0, _⟩ =>
        show (D.start (ix3 b s t) idx 0 + (D.window (ix3 b s t) 0 : Nat)).toNat = (i 0).val
        rw [w0, e0, g0]; omega
      | ⟨1, _⟩ =>
        show (D.start (ix3 b s t) idx 1 + (D.window (ix3 b s t) 1 : Nat)).toNat = (i 1).val
        rw [w1, e1, g1]; omega
      | ⟨2, _⟩ =>
        show (D.start (ix3 b s t) idx 2 + (D.window (ix3 b s t) 2 : Nat)).toNat = (i 2).val
        rw [w2, e2, g2]; omega
  · rename_i h
    constructor
    · intro hi; exact absurd hi (by simp)
    · rintro ⟨g0, g1, g2⟩
      exfalso
      apply h
      intro a
      match a with
      | ⟨0, _⟩ =>
        show 0 ≤ D.start (ix3 b s t) idx 0 + (D.window (ix3 b s t) 0 : Nat) ∧ D.start (ix3 b s t) idx 0 + (D.window (ix3 b s t) 0 : Nat) < (16 : Nat)
        rw [w0, e0, g0]; omega
      | ⟨1, _⟩ =>
        show 0 ≤ D.start (ix3 b s t) idx 1 + (D.window (ix3 b s t) 1 : Nat) ∧ D.start (ix3 b s t) idx 1 + (D.window (ix3 b s t) 1 : Nat) < (32 : Nat)
        rw [w1, e1, g1]; omega
      | ⟨2, _⟩ =>
        show 0 ≤ D.start (ix3 b s t) idx 2 + (D.window (ix3 b s t) 2 : Nat) ∧ D.start (ix3 b s t) idx 2 + (D.window (ix3 b s t) 2 : Nat) < (32000 : Nat)
        rw [w2, e2, g2]; omega

end Cert.SegBow.Ref

end
-- ==== Proof.RefIndex.lean ====
/-
  The reference's scatter operands read at an index: the three index words of an update and the update's value.
-/
import proofs.«407604_j37160057045658_2_alg».proof.Proof.Gen.ReferenceIdeal.Read
import proofs.«407604_j37160057045658_2_alg».proof.Proof.Spec
import Idealize.ShloMosaic.Lib.ValueIdx
import Idealize.ShloMosaic.Lib.Pipeline.Value

noncomputable section

namespace Cert.SegBow.Ref

open Idealize.ShloMosaic Idealize.ShloMosaic.ValueIdx Cert.ReferenceIdeal Cert.ReferenceIdeal.Gen Cert.ReferenceIdeal.Read Cert.SegBow

/-- A sample number, below 16, is not negative as a signed 32-bit word. -/
theorem slt_b (b : Fin 16) : IntOp.cmpi .slt (BitVec.ofNat 32 b.val) 0#32 = 0#1 := by
  revert b; decide

/-- A segment number, below 32, is not negative as a signed 32-bit word. -/
theorem slt_s (s : Fin 32) : IntOp.cmpi .slt (BitVec.ofNat 32 s.val) 0#32 = 0#1 := by
  revert s; decide

/-- Word 0 of the index vector of update (b, s, t) is the sample number. -/
theorem idxvec_0 (x0 : IVec S16x512 32) (b : Fin 16) (s : Fin 32) (t : Fin 512) :
    val_main_v50 (F := Ideal) x0 (ix4 b s t (0 : Fin 3)) = BitVec.ofNat 32 b.val := by
  unfold val_main_v50
  -- coordinate 0 of the joined axis lies in the first piece, at its only position
  refine (concatenate_apply_piece (3 : Fin 4)
    [⟨S16x32x512x1, (val_main_v47 (F := Ideal))⟩, ⟨S16x32x512x1, (val_main_v48 (F := Ideal))⟩, ⟨S16x32x512x1, (val_main_v49 (F := Ideal) x0)⟩]
    _ (ix4 b s t (0 : Fin 3)) 0 (Nat.zero_lt_succ _) S16x32x512x1
    (val_main_v47 (F := Ideal)) rfl rfl 0 rfl (ix4 b s t (0 : Fin 1)) ?_ ?_).trans ?_
  · intro a ha
    match a with
    | ⟨0, _⟩ => rfl
    | ⟨1, _⟩ => rfl
    | ⟨2, _⟩ => rfl
    | ⟨3, _⟩ => exact absurd rfl ha
  · rfl
  · rw [val_main_v47_apply, val_main_v36_apply, val_main_v33_apply, val_main_v24_apply, val_main_v23_apply,
      val_main_v22_apply, val_main_v32_apply, val_main_c_apply]
    exact (congrArg (fun c => Scalar.select c _ _) (slt_b b)).trans (select_zero _ _)

/-- Word 1 is the segment number. -/
theorem idxvec_1 (x0 : IVec S16x512 32) (b : Fin 16) (s : Fin 32) (t : Fin 512) :
    val_main_v50 (F := Ideal) x0 (ix4 b s t (1 : Fin 3)) = BitVec.ofNat 32 s.val := by
  unfold val_main_v50
  -- coordinate 1 of the joined axis lies in the second piece, one position past the first
  refine (concatenate_apply_piece (3 : Fin 4)
    [⟨S16x32x512x1, (val_main_v47 (F := Ideal))⟩, ⟨S16x32x512x1, (val_main_v48 (F := Ideal))⟩, ⟨S16x32x512x1, (val_main_v49 (F := Ideal) x0)⟩]
    _ (ix4 b s t (1 : Fin 3)) 1 (Nat.succ_lt_succ (Nat.zero_lt_succ _)) S16x32x512x1
    (val_main_v48 (F := Ideal)) rfl rfl 1 rfl (ix4 b s t (0 : Fin 1)) ?_ ?_).trans ?_
  · intro a ha
    match a with
    | ⟨0, _⟩ => rfl
    | ⟨1, _⟩ => rfl
    | ⟨2, _⟩ => rfl
    | ⟨3, _⟩ => exact absurd rfl ha
  · rfl
  · rw [val_main_v48_apply, val_main_v41_apply, val_main_v38_apply, val_main_v27_apply, val_main_v26_apply,
      val_main_v25_apply, val_main_v37_apply, val_main_c_1_apply]
    exact (congrArg (fun c => Scalar.select c _ _) (slt_s s)).trans (select_zero _ _)

/-- Word 2 is the token at (b, t), a negative token moved up by the vocabulary size. -/
theorem idxvec_2 (x0 : IVec S16x512 32) (b : Fin 16) (s : Fin 32) (t : Fin 512) :
    val_main_v50 (F := Ideal) x0 (ix4 b s t (2 : Fin 3))
      = Scalar.select (IntOp.cmpi .slt (x0 (ix2 b t)) 0#32) (IntOp.addi (x0 (ix2 b t)) 32000#32) (x0 (ix2 b t)) := by
  unfold val_main_v50
  -- coordinate 2 of the joined axis lies in the third piece, two positions past the first
  refine (concatenate_apply_piece (3 : Fin 4)
    [⟨S16x32x512x1, (val_main_v47 (F := Ideal))⟩, ⟨S16x32x512x1, (val_main_v48 (F := Ideal))⟩, ⟨S16x32x512x1, (val_main_v49 (F := Ideal) x0)⟩]
    _ (ix4 b s t (2 : Fin 3)) 2 (Nat.succ_lt_succ (Nat.succ_lt_succ (Nat.zero_lt_succ _))) S16x32x512x1
    (val_main_v49 (F := Ideal) x0) rfl rfl 2 rfl (ix4 b s t (0 : Fin 1)) ?_ ?_).trans ?_
  · intro a ha
    match a with
    | ⟨0, _⟩ => rfl
    | ⟨1, _⟩ => rfl
    | ⟨2, _⟩ => rfl
    | ⟨3, _⟩ => exact absurd rfl ha
  · rfl
  · have hi : idx_main_v28 (idx_main_v29 (idx_main_v49 (ix4 b s t (0 : Fin 1)))) = ix2 b t := by
      funext a
      match a with
      | ⟨0, _⟩ => rfl
      | ⟨1, _⟩ => rfl
    rw [val_main_v49_apply, val_main_v46_apply, val_main_v43_apply, val_main_v45_apply, val_main_v29_apply,
      val_main_v28_apply, val_main_v42_apply, val_main_c_3_apply, val_main_v44_apply, val_main_c_4_apply, hi]

/-- The position word of update (b, s, t) in the lower comparison is t. -/
theorem v13_at (b : Fin 16) (s : Fin 32) (t : Fin 512) :
    val_main_v13 (F := Ideal) (ix3 b s t) = BitVec.ofNat 32 t.val := by
  rw [val_main_v13_apply, val_main_v11_apply, val_main_v0_apply]

/-- The position word in the upper comparison is t as well. -/
theorem v18_at (b : Fin 16) (s : Fin 32) (t : Fin 512) :
    val_main_v18 (F := Ideal) (ix3 b s t) = BitVec.ofNat 32 t.val := by
  rw [val_main_v18_apply, val_main_v16_apply, val_main_v0_apply]

/-- The lower bound of update (b, s, t): the span's start clamped by the sample's length. -/
theorem v14_at (x1 : IVec S16 32) (x2 : IVec S16x32x2 32) (b : Fin 16) (s : Fin 32) (t : Fin 512) :
    val_main_v14 (F := Ideal) x1 x2 (ix3 b s t) = IntOp.minsi (x2 (ix3 b s (0 : Fin 2))) (x1 (ix1 b)) := by
  have hb := b.isLt
  have hs := s.isLt
  have h2 : idx_main_v1 (idx_main_v2 (idx_main_v12 (idx_main_v14 (ix3 b s t)))) = ix3 b s (0 : Fin 2) := by
    funext a
    match a with
    | ⟨0, _⟩ => exact Fin.ext (by show (b.val * 32 + s.val) / 32 = b.val; omega)
    | ⟨1, _⟩ => exact Fin.ext (by show (b.val * 32 + s.val) / 1 % 32 = s.val; omega)
    | ⟨2, _⟩ => rfl
  have h1 : idx_main_v3 (idx_main_v4 (idx_main_v12 (idx_main_v14 (ix3 b s t)))) = ix1 b := by
    funext a
    match a with
    | ⟨0, _⟩ => rfl
  rw [val_main_v14_apply, val_main_v12_apply, val_main_v5_apply, val_main_v2_apply, val_main_v1_apply,
    val_main_v4_apply, val_main_v3_apply, h2, h1]

/-- The upper bound of update (b, s, t): the span's stop clamped by the sample's length. -/
theorem v19_at (x1 : IVec S16 32) (x2 : IVec S16x32x2 32) (b : Fin 16) (s : Fin 32) (t : Fin 512) :
    val_main_v19 (F := Ideal) x1 x2 (ix3 b s t) = IntOp.minsi (x2 (ix3 b s (1 : Fin 2))) (x1 (ix1 b)) := by
  have hb := b.isLt
  have hs := s.isLt
  have h2 : idx_main_v6 (idx_main_v7 (idx_main_v17 (idx_main_v19 (ix3 b s t)))) = ix3 b s (1 : Fin 2) := by
    funext a
    match a with
    | ⟨0, _⟩ => exact Fin.ext (by show (b.val * 32 + s.val) / 32 = b.val; omega)
    | ⟨1, _⟩ => exact Fin.ext (by show (b.val * 32 + s.val) / 1 % 32 = s.val; omega)
    | ⟨2, _⟩ => rfl
  have h1 : idx_main_v8 (idx_main_v9 (idx_main_v17 (idx_main_v19 (ix3 b s t)))) = ix1 b := by
    funext a
    match a with
    | ⟨0, _⟩ => rfl
  rw [val_main_v19_apply, val_main_v17_apply, val_main_v10_apply, val_main_v7_apply, val_main_v6_apply,
    val_main_v9_apply, val_main_v8_apply, h2, h1]

/-- The value of update (b, s, t) is the segment weight of position t. -/
theorem upd_apply (x1 : IVec S16 32) (x2 : IVec S16x32x2 32) (b : Fin 16) (s : Fin 32) (t : Fin 512) :
    val_main_v31 (F := Ideal) x1 x2 (ix3 b s t) = segW x1 x2 b s t := by
  rw [val_main_v31_apply, val_main_v21_apply, val_main_v15_apply, val_main_v20_apply, v13_at, v18_at, v14_at, v19_at]
  exact uitofp_bit _

end Cert.SegBow.Ref

end
-- ==== Proof.RefValue.lean ====
/-
  The reference's result is the stated function of the arguments, when no token is negative.
-/
import proofs.«407604_j37160057045658_2_alg».proof.Proof.Gen.ReferenceIdeal.Read
import proofs.«407604_j37160057045658_2_alg».proof.Proof.Spec
import proofs.«407604_j37160057045658_2_alg».proof.Proof.Algebra
import proofs.«407604_j37160057045658_2_alg».proof.Proof.Scatter
import proofs.«407604_j37160057045658_2_alg».proof.Proof.RefIndex
import Idealize.ShloMosaic.Lib.ValueIdx
import Idealize.ShloMosaic.Lib.Pipeline.Value
import Idealize.ShloMosaic.PureOps.Ideal.Laws

noncomputable section

namespace Cert.SegBow.Ref

open Idealize.ShloMosaic Idealize.ShloMosaic.ValueIdx Cert.ReferenceIdeal Cert.ReferenceIdeal.Gen Cert.ReferenceIdeal.Read Cert.SegBow

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A number below 2^31, written as a 32-bit word and read signed, is itself. -/
theorem toInt_ofNat_small (n : Nat) (h : n < 2147483648) : (BitVec.ofNat 32 n).toInt = (n : Int) := by
  rw [BitVec.toInt_eq_toNat_cond, BitVec.toNat_ofNat]
  have hm : n % 2 ^ 32 = n := Nat.mod_eq_of_lt (by omega)
  rw [hm]
  split <;> omega

/-- A word that is not negative read signed fails the signed test "below zero". -/
theorem cmpi_slt_zero_of_nonneg (tok : BitVec 32) (h : 0 ≤ tok.toInt) : IntOp.cmpi .slt tok 0#32 = 0#1 := by
  have hf : tok.slt 0#32 = false := by
    refine Bool.eq_false_iff.mpr fun hh => ?_
    have hlt := BitVec.slt_iff_toInt_lt.mp hh
    have h0 : (0#32 : BitVec 32).toInt = 0 := by decide
    omega
  show BitVec.ofBool (tok.slt 0#32) = 0#1
  rw [hf]
  rfl

/-- A word read signed is the number v below the vocabulary size exactly when it is v written as a word. -/
theorem toInt_eq_iff (tok : BitVec 32) (v : Fin 32000) : tok.toInt = ((v.val : Nat) : Int) ↔ tok = BitVec.ofNat 32 v.val := by
  have hv : (BitVec.ofNat 32 v.val).toInt = (v.val : Int) := toInt_ofNat_small v.val (by have := v.isLt; omega)
  constructor
  · intro h
    exact BitVec.eq_of_toInt_eq (h.trans hv.symm)
  · intro h
    rw [h, hv]

/-- The update at (b', s', t) lands on the histogram cell (b, s, v) exactly when b' = b, s' = s and the token at
    (b', t) is v, when that token is not negative. -/
theorem hit_cell_iff (x0 : IVec S16x512 32) (b b' : Fin 16) (s s' : Fin 32) (t : Fin 512) (v : Fin 32000)
    (hpos : 0 ≤ (x0 (ix2 b' t)).toInt) :
    scatter_S16x32x32000_S16x32x512x3_S16x32x512_n_012_012_3.resultIdx? (ix3 b' s' t) (val_main_v50 (F := Ideal) x0) = some (ix3 b s v)
      ↔ b' = b ∧ s' = s ∧ x0 (ix2 b' t) = BitVec.ofNat 32 v.val := by
  refine (hits_iff (val_main_v50 (F := Ideal) x0) b' s' t (ix3 b s v)).trans ?_
  rw [idxvec_0, idxvec_1, idxvec_2, cmpi_slt_zero_of_nonneg _ hpos, select_zero]
  show (BitVec.ofNat 32 b'.val).toInt = ((b.val : Nat) : Int) ∧ (BitVec.ofNat 32 s'.val).toInt = ((s.val : Nat) : Int)
      ∧ (x0 (ix2 b' t)).toInt = ((v.val : Nat) : Int) ↔ _
  rw [toInt_ofNat_small b'.val (by have := b'.isLt; omega), toInt_ofNat_small s'.val (by have := s'.isLt; omega), toInt_eq_iff]
  constructor
  · rintro ⟨h1, h2, h3⟩
    exact ⟨Fin.ext (by exact_mod_cast h1), Fin.ext (by exact_mod_cast h2), h3⟩
  · rintro ⟨rfl, rfl, h3⟩
    exact ⟨rfl, rfl, h3⟩

/-- The histogram cell (b, s, v) collects the segment weights of the positions whose token is v. -/
theorem hist_apply (x0 : IVec S16x512 32) (x1 : IVec S16 32) (x2 : IVec S16x32x2 32)
    (hpos : ∀ (b : Fin 16) (t : Fin 512), 0 ≤ (x0 (ix2 b t)).toInt) (b : Fin 16) (s : Fin 32) (v : Fin 32000) :
    val_main_v51 (F := Ideal) x0 x1 x2 (ix3 b s v) = ∑ t : Fin 512, segW x1 x2 b s t * hot (x0 (ix2 b t)) v := by
  -- the scatter starts from the zero array
  have h0 : val_main_v30 (F := Ideal) (ix3 b s v) = 0 := by
    rw [val_main_v30_apply, val_main_cst_apply]
    exact Ideal.ofBits_zero_f32
  unfold val_main_v51
  simp only [Host.scatterAdd, Ideal.hostScatterAdd_def, Ideal.hostScatterAdd]
  rw [h0, zero_add, Finset.sum_filter, sum_idx3]
  -- only the updates of sample b and segment s can land on the cell
  refine (Finset.sum_eq_single b ?_ ?_).trans ?_
  · intro b' _ hb
    exact Finset.sum_eq_zero fun s' _ => Finset.sum_eq_zero fun t _ =>
      if_neg fun h => hb ((hit_cell_iff x0 b b' s s' t v (hpos b' t)).mp h).1
  · intro h
    exact absurd (Finset.mem_univ _) h
  refine (Finset.sum_eq_single s ?_ ?_).trans ?_
  · intro s' _ hs
    exact Finset.sum_eq_zero fun t _ =>
      if_neg fun h => hs ((hit_cell_iff x0 b b s s' t v (hpos b t)).mp h).2.1
  · intro h
    exact absurd (Finset.mem_univ _) h
  -- and of those, the ones whose token is v
  refine Finset.sum_congr rfl fun t _ => ?_
  rw [upd_apply]
  unfold hot
  by_cases ht : x0 (ix2 b t) = BitVec.ofNat 32 v.val
  · rw [if_pos ((hit_cell_iff x0 b b s s t v (hpos b t)).mpr ⟨rfl, rfl, ht⟩), if_pos ht, mul_one]
  · rw [if_neg fun h => ht ((hit_cell_iff x0 b b s s t v (hpos b t)).mp h).2.2, if_neg ht, mul_zero]

/-- The reference's result array is G of the arguments. -/
theorem ref_eq (x0 : IVec S16x512 32) (x1 : IVec S16 32) (x2 : IVec S16x32x2 32) (x3 : FVec Ideal S32000x128 .f32) (x4 : FVec Ideal S128 .f32)
    (hpos : ∀ (b : Fin 16) (t : Fin 512), 0 ≤ (x0 (ix2 b t)).toInt) :
    val_main_v55 (F := Ideal) x0 x1 x2 x3 x4 = G x0 x1 x2 x3 x4 := by
  funext i
  obtain ⟨b, s, d, rfl⟩ : ∃ (b : Fin 16) (s : Fin 32) (d : Fin 128), i = ix3 b s d := ⟨_, _, _, eq_ix3 i⟩
  rw [G_ix3, val_main_v55_apply, val_main_v52_apply, val_main_v54_apply, val_main_v53_apply]
  -- the contraction reads the histogram at (b, s, k) and the table at (k, d); the bias is read at d
  have hl : ∀ k : Fin 32000, lidx_main_v52 (ix3 b s d) k = ix3 b s k := fun k => by
    funext a; match a with | ⟨0, _⟩ => rfl | ⟨1, _⟩ => rfl | ⟨2, _⟩ => rfl
  have hr : ∀ k : Fin 32000, ridx_main_v52 (ix3 b s d) k = ix2 k d := fun k => by
    funext a; match a with | ⟨0, _⟩ => rfl | ⟨1, _⟩ => rfl
  have hb : idx_main_v53 (idx_main_v54 (ix3 b s d)) = ix1 d := by
    funext a; match a with | ⟨0, _⟩ => rfl
  show (∑ k : Fin 32000, val_main_v51 (F := Ideal) x0 x1 x2 (lidx_main_v52 (ix3 b s d) k) * x3 (ridx_main_v52 (ix3 b s d) k))
      + x4 (idx_main_v53 (idx_main_v54 (ix3 b s d))) = _
  rw [hb]
  unfold Gval emb
  refine congrArg (· + x4 (ix1 d)) ?_
  have hsum : ∀ k : Fin 32000, val_main_v51 (F := Ideal) x0 x1 x2 (lidx_main_v52 (ix3 b s d) k) * x3 (ridx_main_v52 (ix3 b s d) k)
      = (∑ t : Fin 512, segW x1 x2 b s t * hot (x0 (ix2 b t)) k) * x3 (ix2 k d) := fun k => by
    rw [hl, hr, hist_apply x0 x1 x2 hpos]
  rw [Finset.sum_congr rfl fun k _ => hsum k]
  exact (sum_mask_hot_swap (fun t => segW x1 x2 b s t) (fun t k => hot (x0 (ix2 b t)) k) (fun k => x3 (ix2 k d))
    (fun t => bitVal_zero_or_one _) (fun t k => hot_zero_or_one _ _)).symm

end Cert.SegBow.Ref

end
-- ==== Proof.PreDecode.lean ====
/-
  From the stated precondition: every token is nonnegative as a signed 32-bit integer.
-/
import proofs.«407604_j37160057045658_2_alg».proof.Pre_finite_inputs
import proofs.«407604_j37160057045658_2_alg».proof.Proof.Gen.Pre_finite_inputs
import Idealize.ShloMosaic.Lib.ValueIdx
import Idealize.ShloMosaic.Lib.ReduceAll
import Idealize.ShloMosaic.Lib.StableHlo.Predicate

noncomputable section

namespace Cert.SegBow

open Idealize.ShloMosaic Idealize.ShloMosaic.ValueIdx Cert.Pre_finite_inputs Cert.Pre_finite_inputs.Gen

/-- A rank-0 shape has one index. -/
instance subsingleton_scalar_idx : Subsingleton S_.Idx := ⟨fun a b => funext fun d => d.elim0⟩

/-- The precondition's last conjunct is "all tokens >= 0" (signed), so where the precondition holds every token word has
    a nonnegative integer value. -/
theorem tokens_nonneg (a0 : IVec S16x512 32) (a1 : IVec S16 32) (a2 : IVec S16x32x2 32) (a3 : FVec Ideal S32000x128 .f32) (a4 : FVec Ideal S128 .f32)
    (h : Cert.Pre_finite_inputs.fn (F := Ideal) a0 a1 a2 a3 a4 = fun _ => 1#1) (b : Fin 16) (t : Fin 512) :
    0 ≤ (a0 (ix2 b t)).toInt := by
  -- the predicate's one word: the conjunction of the float-finiteness part and the all-reduction of the token compare
  have h0 := congrFun h ix0
  dsimp only [Cert.Pre_finite_inputs.fn] at h0
  have h1 : IntOp.andi _ _ = 1#1 := h0
  obtain ⟨-, h2⟩ := IntOp.andi_eq_one.1 h1
  -- an all-reduction by `and` that is 1 had a 1 at every index
  have h3 := Host.reduce_andi_all _ _ _ _ _ h2 (ix2 b t)
  -- the compare is pointwise and the broadcast scalar reads 0 everywhere
  have h4 : IntOp.cmpi .sge (a0 (ix2 b t)) 0#32 = 1#1 := h3
  have h5 := IntOp.cmpi_sge.1 h4
  rwa [show (0#32 : BitVec 32).toInt = 0 from by decide] at h5

end Cert.SegBow

end
-- ==== Proof.lean ====
/-
  The five claims for the segment bag-of-words kernel against its histogram reference.

  Both programs compute, for sample b, segment s and column d,
      sum over positions t of [t lies in segment s of sample b] * E(b, t, d) + bias(d),
  with E(b, t, d) the row of W the token at position t selects. The kernel accumulates E over 25 chunks of the
  vocabulary and then reduces over the positions; the reference first counts, per segment, how often each vocabulary id
  occurs and then multiplies the counts by W. Exchanging the two sums joins them; the weights are 0 or 1, so the
  exchange holds over the extended reals whatever W holds. The reference moves a negative token up by the vocabulary
  size before it counts it, which the kernel does not: the precondition's last conjunct (every token is nonnegative)
  excludes exactly that.
-/
import proofs.«407604_j37160057045658_2_alg».proof.Defs
import proofs.«407604_j37160057045658_2_alg».proof.Proof.Gen.Kernel
import proofs.«407604_j37160057045658_2_alg».proof.Proof.Gen.Kernel.Frame
import proofs.«407604_j37160057045658_2_alg».proof.Proof.Gen.KernelIdeal
import proofs.«407604_j37160057045658_2_alg».proof.Proof.Gen.KernelIdeal.Frame
import proofs.«407604_j37160057045658_2_alg».proof.Proof.Gen.KernelIdeal.Value
import proofs.«407604_j37160057045658_2_alg».proof.Proof.Gen.ReferenceIdeal
import proofs.«407604_j37160057045658_2_alg».proof.Proof.Gen.ReferenceIdeal.Run
import proofs.«407604_j37160057045658_2_alg».proof.Proof.Gen.ReferenceIdeal.Read
import proofs.«407604_j37160057045658_2_alg».proof.Proof.Gen.Pre_finite_inputs
import proofs.«407604_j37160057045658_2_alg».proof.Proof.Spec
import proofs.«407604_j37160057045658_2_alg».proof.Proof.KernelValue
import proofs.«407604_j37160057045658_2_alg».proof.Proof.RefValue
import proofs.«407604_j37160057045658_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at G of the (agreeing) arguments: the kernel's by its accumulated value, the
    reference's by its histogram read back, where no token is negative. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.SegBow.G (Cert.SegBow.Kern.toks m c) (Cert.SegBow.Kern.lens m c) (Cert.SegBow.Kern.spans m c) (Cert.SegBow.Kern.wts m c) (Cert.SegBow.Kern.bias m c),
    Cert.SegBow.Kern.run m ρ, ?_⟩
  refine (θ_run Cert.ReferenceIdeal.defs _ _).mono (fun _ h c => ⟨(h c).1.trans ?_, (h c).2⟩)
    (Cert.ReferenceIdeal.Value.run (F := Ideal) m' ρ')
  have hpos : ∀ (b : Fin 16) (t : Fin 512), 0 ≤ ((m ((c.tc : Thread Cert.KernelIdeal.nD Cert.KernelIdeal.τ).loc Cert.KernelIdeal.main_arg0) : IVec Cert.KernelIdeal.S16x512 32) (ix2 b t)).toInt :=
    fun b t => Cert.SegBow.tokens_nonneg _ _ _ _ _ (hpre c) b t
  rw [(hagree c).1, (hagree c).2.1, (hagree c).2.2.1, (hagree c).2.2.2.1, (hagree c).2.2.2.2, Cert.ReferenceIdeal.Read.val_main_v55_eq]
  exact Cert.SegBow.Ref.ref_eq _ _ _ _ _ hpos

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
